-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x6 : Shape := ⟨2, ![50000, 6]⟩
abbrev S2x800000 : Shape := ⟨2, ![2, 800000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x6 : S_.BroadcastsInDim S50000x6 (![] : Fin 0 → Fin S50000x6.rank)
  reducesTo_S50000x6_S_d0_1 : S50000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S64 .f32) (main_arg9 : FVec F S64x128 .f32) (main_arg10 : FVec F S128 .f32) (main_arg11 : FVec F S64x128 .f32) (main_arg12 : FVec F S128 .f32) (main_arg13 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64x128 .f32) (main_arg10 : FVec F S128 .f32) (main_arg11 : FVec F S64x128 .f32) (main_arg12 : FVec F S128 .f32) (main_arg13 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x6 .f32) (main_arg1 : IVec S2x800000 32) (main_arg2 : FVec F S6x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64x128 .f32) (main_arg10 : FVec F S128 .f32) (main_arg11 : FVec F S64x128 .f32) (main_arg12 : FVec F S128 .f32) (main_arg13 : FVec F S128 .f32) : IVec S_ 1 :=
  let main_v0 : FVec F S50000x6 .f32 := Host.absf main_arg0
  let main_cst : FVec F S_ .f32 := constant S_ .f32 0x7F800000#32
  let main_v1 : FVec F S50000x6 .f32 := broadcastInDim S50000x6 ![] bcast_S_S50000x6 main_cst
  let main_v2 : IVec S50000x6 1 := cmpf .olt main_v0 main_v1
  let main_c : IVec S_ 1 := constantI S_ 1 1#1
  let main_v3 : IVec S_ 1 := (fun x v => Host.reduce IntOp.andi x v reducesTo_S50000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S50000x6 : Shape := ⟨2, ![50000, 6]⟩
abbrev S2x800000 : Shape := ⟨2, ![2, 800000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x6 : Shape := ⟨2, ![5000, 6]⟩
abbrev S5000x64 : Shape := ⟨2, ![5000, 64]⟩
abbrev S800000x64 : Shape := ⟨2, ![800000, 64]⟩
abbrev S2000x64 : Shape := ⟨2, ![2000, 64]⟩
abbrev S2000x1 : Shape := ⟨2, ![2000, 1]⟩
abbrev S2000 : Shape := ⟨1, ![2000]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 67
  | .vmem => 32
  | .smem => 0
  | _ => 0

abbrev bufTy : (tb : Table) → Fin (tcTables nBuf tb) → BufTy
  | .hbm, ⟨0, _⟩ => ⟨S50000x6, .f32⟩
  | .hbm, ⟨1, _⟩ => ⟨S2x800000, .i32⟩
  | .hbm, ⟨2, _⟩ => ⟨S6x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S64x128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S1x64, .f32⟩
  | .hbm, ⟨32, _⟩ => ⟨S50000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .local _ .vmem, ⟨0, _⟩ => ⟨S5000x6, .f32⟩
  | .local _ .vmem, ⟨1, _⟩ => ⟨S5000x6, .f32⟩
  | .local _ .vmem, ⟨2, _⟩ => ⟨S6x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S2000x64, .f32⟩
  | .local _ .vmem, ⟨24, _⟩ => ⟨S2000x64, .f32⟩
  | .local _ .vmem, ⟨25, _⟩ => ⟨S64x128, .f32⟩
  | .local _ .vmem, ⟨26, _⟩ => ⟨S1x128, .f32⟩
  | .local _ .vmem, ⟨27, _⟩ => ⟨S64x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S50000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  broadcasts_S1x64_S2000x64 : S1x64.Broadcasts S2000x64
  reduces_S2000x64_S2000 : S2000x64.Reduces [1] S2000
  shapeCasts_S2000_S2000x1 : S2000.ShapeCasts S2000x1
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  dot_S5000x6_S6x64_S5000x64_1_0_0_1_n_n_wf : DotDims.WF S5000x6 S6x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S50000x6.size a
  hwx0_0 : ∀ i : grid0.Coords, EltTy.bits .f32 = 32 ∨ (Rect.block (s := S50000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x6 : Shape := ⟨2, ![50000, 6]⟩
abbrev S2x800000 : Shape := ⟨2, ![2, 800000]⟩
abbrev S6x64 : Shape := ⟨2, ![6, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000 : Shape := ⟨1, ![50000]⟩
abbrev S50000x128 : Shape := ⟨2, ![50000, 128]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S50000x6, .f32⟩
  | 1 => ⟨S2x800000, .i32⟩
  | 2 => ⟨S6x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64x128, .f32⟩
  | 10 => ⟨S128, .f32⟩
  | 11 => ⟨S64x128, .f32⟩
  | 12 => ⟨S128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S_, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S_, .f32⟩
  | 45 => ⟨S50000x1, .f32⟩
  | 46 => ⟨S50000x1, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x64, .f32⟩
  | 62 => ⟨S50000x64, .f32⟩
  | 63 => ⟨S50000x64, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x64, .f32⟩
  | 71 => ⟨S50000x64, .f32⟩
  | 72 => ⟨S_, .f32⟩
  | 73 => ⟨S50000x1, .f32⟩
  | 74 => ⟨S50000x1, .f32⟩
  | 75 => ⟨S50000x1, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S_, .f32⟩
  | 101 => ⟨S800000x1, .f32⟩
  | 102 => ⟨S_, .f32⟩
  | 103 => ⟨S50000x1, .f32⟩
  | 104 => ⟨S800000x1, .i32⟩
  | 105 => ⟨S50000x1, .f32⟩
  | 106 => ⟨S_, .f32⟩
  | 107 => ⟨S50000x1, .f32⟩
  | 108 => ⟨S50000x1, .f32⟩
  | 109 => ⟨S50000x64, .f32⟩
  | 110 => ⟨S50000x64, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S_, .f32⟩
  | 118 => ⟨S50000, .f32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S50000x128, .f32⟩
  | 126 => ⟨S_, .f32⟩
  | 127 => ⟨S50000, .f32⟩
  | _ => ⟨S50000x6, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x128, .f32⟩
  | 5 => ⟨S50000x128, .f32⟩
  | 6 => ⟨S_, .f32⟩
  | 7 => ⟨S50000x1, .f32⟩
  | 8 => ⟨S50000x1, .f32⟩
  | 9 => ⟨S50000x1, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | _ => ⟨S50000x6, .f32⟩

abbrev hbmTy (i : Nat) : BufTy := match i / 128 with
  | 0 => hbmTy0_0 i
  | 1 => hbmTy0_1 i
  | _ => ⟨S50000x6, .f32⟩

abbrev bufTy : (tb : Table) → Fin (tcTables nBuf tb) → BufTy
  | .hbm, ⟨i, _⟩ => hbmTy i
  | _, _ => ⟨S50000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call2_cst : Ref sig .tc := ⟨.hbm, 146, rfl⟩
abbrev main_call2_v0 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S50000x6_S6x64_S50000x64_1_0_0_1_n_n_wf : DotDims.WF S50000x6 S6x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []

variable [Facts₀]

def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«180277_j29008209117550_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibGraphConv.lean ====
/-
  General facts about one graph-convolution layer read on the extended reals, independent of any program.

  The layer: from a matrix A of neighbour means and the node features X (both M×K), two weight matrices W, W' (K×N) and a
  bias b (N entries), entry (p, q) of the result is
      (Σ_k A(p,k)·W(k,q) + Σ_k X(p,k)·W'(k,q)) + b(q),
  clamped below at zero when the layer has a rectifier (`layer`).
  * A kernel that multiplies a row tile of A and of X by the weights into zero accumulators, adds the two products, adds
    the bias row copied down the tile and takes the maximum with zero computes, at a tile entry, this expression of the
    tile's rows (`tile_apply`).
  * The host's form — (A·W + b) + X·W', the bias copied along the rows, then the maximum with a zero splat — is the same
    function: only the order of the two additions differs, and addition of extended reals is commutative and associative
    (`host_layer_eq`, `host_layer_relu_eq`).
  * The neighbour mean: a sum array S divided entrywise by the column max(deg, 1) is S times the column 1/max(deg, 1),
    because max(deg, 1) ≥ 1 is never zero, and off zero the ideal quotient x / y is x · y⁻¹ while 1 / y is y⁻¹
    (`mul_recip_eq_div`, `mean_mul_eq_div`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«180277_j29008209117550_1_alg».proof.Proof.LibPlainMatmul

noncomputable section

namespace LibGraphConv

open Idealize.ShloMosaic Idealize.ShloMosaic.ValueIdx

/-! ## The layer as one function of whole arrays -/

/-- Entry (p, q) of a graph-convolution layer: (Σ_k A(p,k)·W(k,q) + Σ_k X(p,k)·W'(k,q)) + b(q), clamped below at zero
    when `relu` is set. -/
def layer (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) : FVec Ideal ⟨2, ![M, N]⟩ .f32 :=
  fun i => if relu then
      max (((∑ k : Fin K, A (ix2 (i 0) k) * W (ix2 k (i 1))) + ∑ k : Fin K, X (ix2 (i 0) k) * W' (ix2 k (i 1))) + b (ix1 (i 1))) 0
    else ((∑ k : Fin K, A (ix2 (i 0) k) * W (ix2 k (i 1))) + ∑ k : Fin K, X (ix2 (i 0) k) * W' (ix2 k (i 1))) + b (ix1 (i 1))

theorem layer_apply (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) (p : Fin M) (q : Fin N) :
    layer relu A X W b W' (ix2 p q) = if relu then
      max (((∑ k : Fin K, A (ix2 p k) * W (ix2 k q)) + ∑ k : Fin K, X (ix2 p k) * W' (ix2 k q)) + b (ix1 q)) 0
    else ((∑ k : Fin K, A (ix2 p k) * W (ix2 k q)) + ∑ k : Fin K, X (ix2 p k) * W' (ix2 k q)) + b (ix1 q) := rfl

/-! ## A kernel's tile -/

/-- A one-row matrix copied down M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The two products of a tile into zero accumulators, added, plus the bias row copied down the tile: at a tile entry
    the two sums over the contracted coordinate and the bias entry of that column. -/
theorem tile_apply {M K N : ℕ} {φ₁ φ₂ : FTy} (A X : FVec Ideal ⟨2, ![M, K]⟩ φ₁) (W W' : FVec Ideal ⟨2, ![K, N]⟩ φ₂)
    (b2 : FVec Ideal ⟨2, ![1, N]⟩ .f32) (hb : (⟨2, ![1, N]⟩ : Shape).Broadcasts ⟨2, ![M, N]⟩) (p : Fin M) (q : Fin N) :
    addf (addf (matmul (DotDims.plain M K N) none A W (constant (⟨2, ![M, N]⟩ : Shape) .f32 0x00000000#32))
        (matmul (DotDims.plain M K N) none X W' (constant (⟨2, ![M, N]⟩ : Shape) .f32 0x00000000#32)))
      (broadcastTo ⟨2, ![M, N]⟩ b2 hb) (ix2 p q)
    = ((∑ k : Fin K, A (ix2 p k) * W (ix2 k q)) + ∑ k : Fin K, X (ix2 p k) * W' (ix2 k q)) + b2 (ix2 (0 : Fin 1) q) := by
  rw [addf_apply, addf_apply, LibPlainMatmul.matmul_plain_zero_apply, LibPlainMatmul.matmul_plain_zero_apply,
    broadcastTo_row_apply]

/-- A vector cast to one row reads, at (0, q), the vector's entry q. -/
theorem shapeCast_row_apply {α : Type} {N : ℕ} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]
    show q.val = 0 * N + q.val
    omega)

/-- So the bias a kernel stages as one row is, column by column, the bias vector. -/
theorem row_of_cast {α : Type} {N : ℕ} (b : (⟨1, ![N]⟩ : Shape).Idx → α)
    (h : (⟨1, ![N]⟩ : Shape).ShapeCasts ⟨2, ![1, N]⟩) :
    (fun u : (⟨1, ![N]⟩ : Shape).Idx => shapeCast ⟨2, ![1, N]⟩ b h (ix2 (0 : Fin 1) (u 0))) = b :=
  funext fun u => (shapeCast_row_apply b h (u 0)).trans (congrArg b (eq_ix1 u).symm)

/-! ## The host's form of the layer -/

/-- A vector laid as one row and copied down M rows reads, at (p, q), the vector's entry q. -/
theorem bias_rows_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun ax => by
    match ax with
    | ⟨0, _⟩ =>
      show q.val = if N = 1 then 0 else q.val
      split
      · have := q.isLt; omega
      · rfl)

/-- The host's (A·W + b) + X·W' is the layer without a rectifier: the two additions in the other order. -/
theorem host_layer_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W')
    = layer false A X W b W' := by
  funext i
  obtain ⟨p, q, rfl⟩ : ∃ (p : Fin M) (q : Fin N), i = ix2 p q := ⟨i 0, i 1, eq_ix2 i⟩
  rw [layer_apply, addf_apply, addf_apply, StackMember.dotGeneral_plain_apply, StackMember.dotGeneral_plain_apply,
    bias_rows_apply]
  exact add_right_comm _ _ _

/-- … and with the maximum against a zero splat it is the layer with its rectifier. -/
theorem host_layer_relu_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W'))
      (broadcastInDim ⟨2, ![M, N]⟩ ![] h0 (constant (⟨0, ![]⟩ : Shape) .f32 0x00000000#32))
    = layer true A X W b W' := by
  rw [host_layer_eq]
  funext i
  obtain ⟨p, q, rfl⟩ : ∃ (p : Fin M) (q : Fin N), i = ix2 p q := ⟨i 0, i 1, eq_ix2 i⟩
  rw [maximumf_apply, layer_apply, layer_apply,
    broadcastInDim_apply ![] h0 _ (ix2 p q) ix0 (fun ax => ax.elim0), constant_apply, Ideal.ofBits_zero_f32]
  rfl

/-! ## The neighbour mean: times the reciprocal column, or divided by the column -/

/-- Off zero the ideal quotient is the product with the inverse, so x · (1 / y) = x / y. -/
theorem mul_recip_eq_div (x y : EReal) (hy : y ≠ 0) : x * Ideal.div 1 y = Ideal.div x y := by
  unfold Ideal.div
  rw [if_neg hy, if_neg hy, one_mul]

/-- A vector of per-row values made a column and copied across the row reads, at (p, q), the value of row p. -/
theorem column_apply {α : Type} {n K : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (q : Fin K) :
    broadcastInDim ⟨2, ![n, K]⟩ ![0, 1] h2 (broadcastInDim ⟨2, ![n, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if n = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if n = 1 then 0 else p.val
      split
      · have := p.isLt; omega
      · rfl)

/-- The sums S times the column 1 / max(deg, 1) is S divided by the column max(deg, 1): the divisor is at least one. -/
theorem mean_mul_eq_div {n K : ℕ} (S : FVec Ideal ⟨2, ![n, K]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (⟨0, ![]⟩ : Shape) .f32 0x3F800000#32))
        (maximumf deg (broadcastInDim ⟨1, ![n]⟩ ![] h0 (constant (⟨0, ![]⟩ : Shape) .f32 0x3F800000#32))))))
    = Host.divf S (broadcastInDim ⟨2, ![n, K]⟩ ![0, 1] h2 (broadcastInDim ⟨2, ![n, 1]⟩ ![0] h1
        (maximumf deg (broadcastInDim ⟨1, ![n]⟩ ![] h0 (constant (⟨0, ![]⟩ : Shape) .f32 0x3F800000#32))))) := by
  funext i
  obtain ⟨p, q, rfl⟩ : ∃ (p : Fin n) (q : Fin K), i = ix2 p q := ⟨i 0, i 1, eq_ix2 i⟩
  rw [mulf_apply, column_apply]
  show S (ix2 p q) * Ideal.div _ _ = Ideal.div (S (ix2 p q)) _
  rw [column_apply, maximumf_apply, broadcastInDim_apply ![] h0 _ (ix1 p) ix0 (fun ax => ax.elim0), constant_apply,
    Ideal.ofBits_one_f32]
  refine mul_recip_eq_div _ _ ?_
  exact (lt_of_lt_of_le zero_lt_one (le_max_right _ _)).ne'

end LibGraphConv

end
-- ==== Proof.LibSageLayer.lean ====
/-
  One layer of a mean-aggregating graph convolution with an affine normalisation and a rectifier, read on the
  extended reals, independent of any program.

  From a matrix `mean` of neighbour means and the node features `x` (both N×K), two weight matrices `Wl`, `Wr`
  (K×H), a bias `bl`, and the normalisation's scale `g`, shift `be`, running mean `rm` and running variance `rv`
  (H entries each), entry (p, q) of the layer is

      max( (((Σ_k mean(p,k)·Wl(k,q) + Σ_k x(p,k)·Wr(k,q)) + bl(q)) − rm(q)) · (g(q) · rsqrt(rv(q) + ε)) + be(q), 0 )

  with ε the single-precision word 0x3727C5AC (`layer`).
  * A row tile computed as: the sums' rows times a per-row factor, times `Wl`, into a zero accumulator; the features'
    rows times `Wr` into a zero accumulator; the two products added; the bias row, the mean row, the scale row and
    the shift row copied down the tile; the maximum with zero — is, at a tile entry, this expression of the tile's
    rows with mean(p,k) = sums(p,k)·factor(p) (`tile_apply`).
  * The other grouping of the two additions, (Σ mean·Wl + bl) + Σ x·Wr, is the same number: addition of extended
    reals is commutative and associative (`entry_regroup`).
  * Each row of an array of sums times that row's entry of a one-column array (`rowScale`, `rowScale_apply`).
  It builds on the plain matrix product read at an entry, the one-row and one-column layout readings (the three
  modules it imports beside the library).
-/
import Idealize.ShloMosaic.PureOps.Ideal.Laws
import Idealize.ShloMosaic.Lib.ValueIdx
import Idealize.ShloMosaic.Lib.Pipeline.Value
import proofs.«180277_j29008209117550_1_alg».proof.Proof.LibPlainMatmul
import proofs.«180277_j29008209117550_1_alg».proof.Proof.LibGraphConv
import proofs.«180277_j29008209117550_1_alg».proof.Proof.LibColumn

noncomputable section

namespace Cert.Sage

open Idealize.ShloMosaic Idealize.ShloMosaic.ValueIdx

/-- The small constant added to the running variance: the single-precision word of 1e-5. -/
abbrev eps : EReal := Ideal.ofBits .f32 0x3727C5AC#32

/-- One entry of the layer, from the two sums over the contracted coordinate and the five per-column numbers. -/
def entry (sl sr bl g be rm rv : EReal) : EReal :=
  max ((((sl + sr) + bl) - rm) * (g * Ideal.rsqrt (rv + eps)) + be) 0

/-- The grouping (sl + bl) + sr of the two additions gives the same entry. -/
theorem entry_regroup (sl sr bl g be rm rv : EReal) :
    max ((((sl + bl) + sr) - rm) * (g * Ideal.rsqrt (rv + eps)) + be) 0 = entry sl sr bl g be rm rv := by
  unfold entry
  rw [add_right_comm sl bl sr]

/-- The layer as one function of whole arrays. -/
def layer {N K H : ℕ} (mean x : FVec Ideal ⟨2, ![N, K]⟩ .f32) (Wl : FVec Ideal ⟨2, ![K, H]⟩ .f32)
    (bl : FVec Ideal ⟨1, ![H]⟩ .f32) (Wr : FVec Ideal ⟨2, ![K, H]⟩ .f32) (g be rm rv : FVec Ideal ⟨1, ![H]⟩ .f32) :
    FVec Ideal ⟨2, ![N, H]⟩ .f32 :=
  fun i => entry (∑ k : Fin K, mean (ix2 (i 0) k) * Wl (ix2 k (i 1))) (∑ k : Fin K, x (ix2 (i 0) k) * Wr (ix2 k (i 1)))
    (bl (ix1 (i 1))) (g (ix1 (i 1))) (be (ix1 (i 1))) (rm (ix1 (i 1))) (rv (ix1 (i 1)))

theorem layer_apply {N K H : ℕ} (mean x : FVec Ideal ⟨2, ![N, K]⟩ .f32) (Wl : FVec Ideal ⟨2, ![K, H]⟩ .f32)
    (bl : FVec Ideal ⟨1, ![H]⟩ .f32) (Wr : FVec Ideal ⟨2, ![K, H]⟩ .f32) (g be rm rv : FVec Ideal ⟨1, ![H]⟩ .f32)
    (p : Fin N) (q : Fin H) :
    layer mean x Wl bl Wr g be rm rv (ix2 p q)
      = entry (∑ k : Fin K, mean (ix2 p k) * Wl (ix2 k q)) (∑ k : Fin K, x (ix2 p k) * Wr (ix2 k q))
          (bl (ix1 q)) (g (ix1 q)) (be (ix1 q)) (rm (ix1 q)) (rv (ix1 q)) := rfl

/-- Each row of an array times that row's entry of a one-column array: the neighbour means from the sums and the
    per-node factor. -/
def rowScale {N K : ℕ} (S : FVec Ideal ⟨2, ![N, K]⟩ .f32) (s : FVec Ideal ⟨2, ![N, 1]⟩ .f32) : FVec Ideal ⟨2, ![N, K]⟩ .f32 :=
  fun i => S i * s (ix2 (i 0) (0 : Fin 1))

theorem rowScale_apply {N K : ℕ} (S : FVec Ideal ⟨2, ![N, K]⟩ .f32) (s : FVec Ideal ⟨2, ![N, 1]⟩ .f32) (n : Fin N) (k : Fin K) :
    rowScale S s (ix2 n k) = S (ix2 n k) * s (ix2 n (0 : Fin 1)) := rfl

/-- A ROW TILE of the layer as a kernel computes it: at the tile's entry (p, q) the layer's entry of the tile's rows,
    the neighbour mean of row p being the row of sums times the row's factor. -/
theorem tile_apply {M K H : ℕ} (a x : FVec Ideal ⟨2, ![M, K]⟩ .f32) (s : FVec Ideal ⟨2, ![M, 1]⟩ .f32)
    (Wl Wr : FVec Ideal ⟨2, ![K, H]⟩ .f32) (bl g be rm rv : FVec Ideal ⟨2, ![1, H]⟩ .f32)
    (hs : (⟨2, ![M, 1]⟩ : Shape).Broadcasts ⟨2, ![M, K]⟩) (hb : (⟨2, ![1, H]⟩ : Shape).Broadcasts ⟨2, ![M, H]⟩)
    (hbf : FTy.bf16.bits < FTy.f32.bits) (p : Fin M) (q : Fin H) :
    maximumf (addf (mulf (subf (addf (addf
        (matmul (DotDims.plain M K H) none (truncf .bf16 (mulf a (broadcastTo ⟨2, ![M, K]⟩ s hs)) hbf) (truncf .bf16 Wl hbf)
          (constant (⟨2, ![M, H]⟩ : Shape) .f32 0x00000000#32))
        (matmul (DotDims.plain M K H) none (truncf .bf16 x hbf) (truncf .bf16 Wr hbf)
          (constant (⟨2, ![M, H]⟩ : Shape) .f32 0x00000000#32)))
        (broadcastTo ⟨2, ![M, H]⟩ bl hb)) (broadcastTo ⟨2, ![M, H]⟩ rm hb))
        (broadcastTo ⟨2, ![M, H]⟩ (mulf g (rsqrt (addf rv (broadcast ⟨2, ![1, H]⟩ (Scalar.ofBits .f32 0x3727C5AC#32))))) hb))
        (broadcastTo ⟨2, ![M, H]⟩ be hb))
      (broadcast ⟨2, ![M, H]⟩ (Scalar.ofBits .f32 0x00000000#32)) (ix2 p q)
    = entry (∑ k : Fin K, (a (ix2 p k) * s (ix2 p (0 : Fin 1))) * Wl (ix2 k q)) (∑ k : Fin K, x (ix2 p k) * Wr (ix2 k q))
        (bl (ix2 (0 : Fin 1) q)) (g (ix2 (0 : Fin 1) q)) (be (ix2 (0 : Fin 1) q)) (rm (ix2 (0 : Fin 1) q))
        (rv (ix2 (0 : Fin 1) q)) := by
  rw [maximumf_apply, addf_apply, mulf_apply, subf_apply, addf_apply, addf_apply,
    LibPlainMatmul.matmul_plain_zero_apply, LibPlainMatmul.matmul_plain_zero_apply,
    LibGraphConv.broadcastTo_row_apply, LibGraphConv.broadcastTo_row_apply, LibGraphConv.broadcastTo_row_apply,
    LibGraphConv.broadcastTo_row_apply, broadcast_apply]
  simp only [truncf_apply, mulf_apply, Cert.LibColumn.broadcastTo_a1_ab_apply]
  unfold entry
  show max _ (Ideal.ofBits .f32 0x00000000#32) = _
  rw [Ideal.ofBits_zero_f32]
  rfl

end Cert.Sage

end
-- ==== Proof.Spec.lean ====
/-
  The network both programs compute, read on the extended reals, independent of any program.

  * `proj`: a linear layer with a rectifier, max(Σ_k x(p,k)·W(k,q) + b(q), 0).
  * `layer`: one mean-aggregating graph-convolution layer followed by a row normalisation and a rectifier.  With
        y(p,j) = (Σ_k mean(p,k)·Wl(k,j) + bl(j)) + Σ_k x(p,k)·Wr(k,j),
        μ(p) = (Σ_j y(p,j)) / n,    σ²(p) = (Σ_j (y(p,j) − μ(p))²) / n,
    entry (p,q) is  max(((y(p,q) − μ(p)) · rsqrt(σ²(p) + ε)) · g(q) + β(q), 0),  ε the single-precision word of 1e-5,
    n the number the row's width is printed as (`cnt`).
  * `projBody` and `lnBody` (= `normBody` of `preBody`): the same two functions as a kernel computes a ROW TILE of them —
    matrix products into a zero accumulator, the operands rounded to a narrower format on the way in (the identity on the
    extended reals), the bias, scale and shift rows copied down the tile, the per-row factor copied along the row, the row
    sums as lane reductions kept as columns (`rowsum_col`). Each, read at a tile entry, is the specification's entry of the
    tile's rows (`projBody_apply`, `preBody_apply`, `normBody_apply`, `lnBody_apply`), the neighbour mean of row p being
    the row of sums times the row's factor.
-/
import Idealize.ShloMosaic.PureOps.Ideal.Laws
import Idealize.ShloMosaic.Lib.ValueIdx
import Idealize.ShloMosaic.Lib.Pipeline.Value
import proofs.«180277_j29008209117550_1_alg».proof.Proof.LibPlainDot
import proofs.«180277_j29008209117550_1_alg».proof.Proof.LibColumn
import proofs.«180277_j29008209117550_1_alg».proof.Proof.LibGraphConv
import proofs.«180277_j29008209117550_1_alg».proof.Proof.LibSageLayer

noncomputable section

namespace Cert.Gnn

open Idealize.ShloMosaic Idealize.ShloMosaic.ValueIdx

/-- The small constant added to a row's variance: the single-precision word of 1e-5. -/
abbrev eps : EReal := Ideal.ofBits .f32 0x3727C5AC#32

/-- A linear layer with a rectifier. -/
def proj {N K H : ℕ} (x : FVec Ideal ⟨2, ![N, K]⟩ .f32) (W : FVec Ideal ⟨2, ![K, H]⟩ .f32) (b : Fin H → EReal) :
    FVec Ideal ⟨2, ![N, H]⟩ .f32 :=
  fun i => max ((∑ k : Fin K, x (ix2 (i 0) k) * W (ix2 k (i 1))) + b (i 1)) 0

theorem proj_apply {N K H : ℕ} (x : FVec Ideal ⟨2, ![N, K]⟩ .f32) (W : FVec Ideal ⟨2, ![K, H]⟩ .f32) (b : Fin H → EReal)
    (p : Fin N) (q : Fin H) :
    proj x W b (ix2 p q) = max ((∑ k : Fin K, x (ix2 p k) * W (ix2 k q)) + b q) 0 := rfl

/-- Row p of the layer before its normalisation. -/
def pre {N K H : ℕ} (mean x : FVec Ideal ⟨2, ![N, K]⟩ .f32) (Wl Wr : FVec Ideal ⟨2, ![K, H]⟩ .f32) (bl : Fin H → EReal)
    (p : Fin N) (j : Fin H) : EReal :=
  ((∑ k : Fin K, mean (ix2 p k) * Wl (ix2 k j)) + bl j) + ∑ k : Fin K, x (ix2 p k) * Wr (ix2 k j)

/-- A row normalised by its own mean and variance, scaled, shifted and clamped at zero, at column q. -/
def norm {H : ℕ} (cnt : EReal) (y g be : Fin H → EReal) (q : Fin H) : EReal :=
  max (((y q - Ideal.div (∑ j : Fin H, y j) cnt)
      * Ideal.rsqrt (Ideal.div (∑ j : Fin H, (y j - Ideal.div (∑ j' : Fin H, y j') cnt) * (y j - Ideal.div (∑ j' : Fin H, y j') cnt)) cnt + eps))
      * g q + be q) 0

/-- The layer as one function of whole arrays. -/
def layer {N K H : ℕ} (cnt : EReal) (mean x : FVec Ideal ⟨2, ![N, K]⟩ .f32) (Wl Wr : FVec Ideal ⟨2, ![K, H]⟩ .f32)
    (bl g be : Fin H → EReal) : FVec Ideal ⟨2, ![N, H]⟩ .f32 :=
  fun i => norm cnt (pre mean x Wl Wr bl (i 0)) g be (i 1)

theorem layer_apply {N K H : ℕ} (cnt : EReal) (mean x : FVec Ideal ⟨2, ![N, K]⟩ .f32) (Wl Wr : FVec Ideal ⟨2, ![K, H]⟩ .f32)
    (bl g be : Fin H → EReal) (p : Fin N) (q : Fin H) :
    layer cnt mean x Wl Wr bl g be (ix2 p q) = norm cnt (pre mean x Wl Wr bl p) g be q := rfl

/-! ## A row tile as a kernel computes it -/

/-- The projection's tile: the product into a zero accumulator, the bias row copied down, the maximum with zero. -/
def projBody {M K H : ℕ} (d : DotDims ⟨2, ![M, K]⟩ ⟨2, ![K, H]⟩ ⟨2, ![M, H]⟩) (hbf : FTy.bf16.bits < FTy.f32.bits)
    (c1H : (⟨2, ![1, H]⟩ : Shape).ShapeCasts ⟨2, ![1, H]⟩) (bRow : (⟨2, ![1, H]⟩ : Shape).Broadcasts ⟨2, ![M, H]⟩)
    (v0 : FVec Ideal ⟨2, ![M, K]⟩ .f32) (v2 : FVec Ideal ⟨2, ![K, H]⟩ .f32) (v5 : FVec Ideal ⟨2, ![1, H]⟩ .f32) :
    FVec Ideal ⟨2, ![M, H]⟩ .f32 :=
  maximumf (addf (matmul d none (truncf .bf16 v0 hbf) (truncf .bf16 v2 hbf) (constant (⟨2, ![M, H]⟩ : Shape) .f32 0x00000000#32))
      (broadcastTo ⟨2, ![M, H]⟩ (shapeCast ⟨2, ![1, H]⟩ v5 c1H) bRow))
    (broadcast ⟨2, ![M, H]⟩ (Scalar.ofBits .f32 0x00000000#32))

theorem projBody_apply {M K H : ℕ} (d : DotDims ⟨2, ![M, K]⟩ ⟨2, ![K, H]⟩ ⟨2, ![M, H]⟩) (hd : d = DotDims.plain M K H)
    (hbf : FTy.bf16.bits < FTy.f32.bits)
    (c1H : (⟨2, ![1, H]⟩ : Shape).ShapeCasts ⟨2, ![1, H]⟩) (bRow : (⟨2, ![1, H]⟩ : Shape).Broadcasts ⟨2, ![M, H]⟩)
    (v0 : FVec Ideal ⟨2, ![M, K]⟩ .f32) (v2 : FVec Ideal ⟨2, ![K, H]⟩ .f32) (v5 : FVec Ideal ⟨2, ![1, H]⟩ .f32)
    (p : Fin M) (q : Fin H) :
    projBody d hbf c1H bRow v0 v2 v5 (ix2 p q)
      = max ((∑ k : Fin K, v0 (ix2 p k) * v2 (ix2 k q)) + v5 (ix2 (0 : Fin 1) q)) 0 := by
  unfold projBody
  rw [maximumf_apply, addf_apply, LibPlainDot.matmul_zero_apply_of_plain d hd, LibGraphConv.broadcastTo_row_apply,
    shapeCast_self, broadcast_apply]
  simp only [truncf_apply]
  show max _ (Ideal.ofBits .f32 0x00000000#32) = _
  rw [Ideal.ofBits_zero_f32]

/-- A reciprocal square root of an array reads, at an index, that of the entry. -/
theorem rsqrt_apply {s : Shape} (a : FVec Ideal s .f32) (i : s.Idx) : rsqrt a i = Ideal.rsqrt (a i) := rfl

/-- A lane sum of an M×H tile kept as an M×1 column reads, at row p, the sum of the tile's row p. -/
theorem rowsum_col {M H : ℕ} (u : FVec Ideal ⟨2, ![M, H]⟩ .f32) (cCol : (⟨1, ![M]⟩ : Shape).ShapeCasts ⟨2, ![M, 1]⟩)
    (red : (⟨2, ![M, H]⟩ : Shape).Reduces [1] ⟨1, ![M]⟩) (p : Fin M) (z : Fin 1) :
    shapeCast ⟨2, ![M, 1]⟩ (multiReduction .add [1] ⟨1, ![M]⟩ u 0x00000000#32 red (.inl rfl) rfl) cCol (ix2 p z)
      = ∑ j : Fin H, u (ix2 p j) := by
  rw [Cert.LibColumn.shapeCast_a_a1_apply]
  refine (Ideal.multiReduction_add_single u _ red _ _ (ix1 p)).trans ?_
  refine Finset.sum_congr rfl fun k _ => congrArg u ?_
  exact funext fun a => Fin.ext (by match a with | ⟨0, _⟩ => rfl | ⟨1, _⟩ => rfl)

/-- The layer's tile before its normalisation: the sums' rows times the per-row factor, the two products into zero
    accumulators, the bias row copied down the tile. -/
def preBody {M K H : ℕ} (d : DotDims ⟨2, ![M, K]⟩ ⟨2, ![K, H]⟩ ⟨2, ![M, H]⟩)
    (hbf : FTy.bf16.bits < FTy.f32.bits)
    (cMK : (⟨2, ![M, K]⟩ : Shape).ShapeCasts ⟨2, ![M, K]⟩) (cM1 : (⟨2, ![M, 1]⟩ : Shape).ShapeCasts ⟨2, ![M, 1]⟩)
    (c1H : (⟨2, ![1, H]⟩ : Shape).ShapeCasts ⟨2, ![1, H]⟩)
    (bMK : (⟨2, ![M, 1]⟩ : Shape).Broadcasts ⟨2, ![M, K]⟩) (bRow : (⟨2, ![1, H]⟩ : Shape).Broadcasts ⟨2, ![M, H]⟩)
    (v0 : FVec Ideal ⟨2, ![M, K]⟩ .f32) (v2 : FVec Ideal ⟨2, ![M, 1]⟩ .f32) (v7 : FVec Ideal ⟨2, ![M, K]⟩ .f32)
    (v10 v12 : FVec Ideal ⟨2, ![K, H]⟩ .f32) (v15 : FVec Ideal ⟨2, ![1, H]⟩ .f32) : FVec Ideal ⟨2, ![M, H]⟩ .f32 :=
  addf (addf
      (matmul d none (truncf .bf16 (mulf (shapeCast ⟨2, ![M, K]⟩ v0 cMK) (broadcastTo ⟨2, ![M, K]⟩ (shapeCast ⟨2, ![M, 1]⟩ v2 cM1) bMK)) hbf)
        (truncf .bf16 v10 hbf) (constant (⟨2, ![M, H]⟩ : Shape) .f32 0x00000000#32))
      (broadcastTo ⟨2, ![M, H]⟩ (shapeCast ⟨2, ![1, H]⟩ v15 c1H) bRow))
    (matmul d none (truncf .bf16 (shapeCast ⟨2, ![M, K]⟩ v7 cMK) hbf) (truncf .bf16 v12 hbf)
      (constant (⟨2, ![M, H]⟩ : Shape) .f32 0x00000000#32))

theorem preBody_apply {M K H : ℕ} (d : DotDims ⟨2, ![M, K]⟩ ⟨2, ![K, H]⟩ ⟨2, ![M, H]⟩) (hd : d = DotDims.plain M K H)
    (hbf : FTy.bf16.bits < FTy.f32.bits)
    (cMK : (⟨2, ![M, K]⟩ : Shape).ShapeCasts ⟨2, ![M, K]⟩) (cM1 : (⟨2, ![M, 1]⟩ : Shape).ShapeCasts ⟨2, ![M, 1]⟩)
    (c1H : (⟨2, ![1, H]⟩ : Shape).ShapeCasts ⟨2, ![1, H]⟩)
    (bMK : (⟨2, ![M, 1]⟩ : Shape).Broadcasts ⟨2, ![M, K]⟩) (bRow : (⟨2, ![1, H]⟩ : Shape).Broadcasts ⟨2, ![M, H]⟩)
    (v0 : FVec Ideal ⟨2, ![M, K]⟩ .f32) (v2 : FVec Ideal ⟨2, ![M, 1]⟩ .f32) (v7 : FVec Ideal ⟨2, ![M, K]⟩ .f32)
    (v10 v12 : FVec Ideal ⟨2, ![K, H]⟩ .f32) (v15 : FVec Ideal ⟨2, ![1, H]⟩ .f32) (p : Fin M) (q : Fin H) :
    preBody d hbf cMK cM1 c1H bMK bRow v0 v2 v7 v10 v12 v15 (ix2 p q)
      = pre (Cert.Sage.rowScale v0 v2) v7 v10 v12 (fun j => v15 (ix2 (0 : Fin 1) j)) p q := by
  unfold preBody pre
  rw [addf_apply, addf_apply, LibPlainDot.matmul_zero_apply_of_plain d hd, LibPlainDot.matmul_zero_apply_of_plain d hd,
    LibGraphConv.broadcastTo_row_apply]
  simp only [truncf_apply, mulf_apply, shapeCast_self, Cert.LibColumn.broadcastTo_a1_ab_apply, Cert.Sage.rowScale_apply]

/-- A tile normalised row by row: the row mean and variance as lane sums kept as columns and divided by the width's word
    `w`, the reciprocal root, the scale and shift rows copied down the tile, the maximum with zero. -/
def normBody {M H : ℕ} (w : BitVec 32)
    (c1H : (⟨2, ![1, H]⟩ : Shape).ShapeCasts ⟨2, ![1, H]⟩) (cCol : (⟨1, ![M]⟩ : Shape).ShapeCasts ⟨2, ![M, 1]⟩)
    (bMH : (⟨2, ![M, 1]⟩ : Shape).Broadcasts ⟨2, ![M, H]⟩) (bRow : (⟨2, ![1, H]⟩ : Shape).Broadcasts ⟨2, ![M, H]⟩)
    (red : (⟨2, ![M, H]⟩ : Shape).Reduces [1] ⟨1, ![M]⟩)
    (y : FVec Ideal ⟨2, ![M, H]⟩ .f32) (g be : FVec Ideal ⟨2, ![1, H]⟩ .f32) : FVec Ideal ⟨2, ![M, H]⟩ .f32 :=
  maximumf (addf (mulf (mulf
      (subf y (broadcastTo ⟨2, ![M, H]⟩ (divf (shapeCast ⟨2, ![M, 1]⟩ (multiReduction .add [1] ⟨1, ![M]⟩ y 0x00000000#32 red (.inl rfl) rfl) cCol) (broadcast ⟨2, ![M, 1]⟩ (Scalar.ofBits .f32 w))) bMH))
      (broadcastTo ⟨2, ![M, H]⟩ (rsqrt (addf
        (divf (shapeCast ⟨2, ![M, 1]⟩ (multiReduction .add [1] ⟨1, ![M]⟩
            (mulf (subf y (broadcastTo ⟨2, ![M, H]⟩ (divf (shapeCast ⟨2, ![M, 1]⟩ (multiReduction .add [1] ⟨1, ![M]⟩ y 0x00000000#32 red (.inl rfl) rfl) cCol) (broadcast ⟨2, ![M, 1]⟩ (Scalar.ofBits .f32 w))) bMH))
              (subf y (broadcastTo ⟨2, ![M, H]⟩ (divf (shapeCast ⟨2, ![M, 1]⟩ (multiReduction .add [1] ⟨1, ![M]⟩ y 0x00000000#32 red (.inl rfl) rfl) cCol) (broadcast ⟨2, ![M, 1]⟩ (Scalar.ofBits .f32 w))) bMH)))
            0x00000000#32 red (.inl rfl) rfl) cCol) (broadcast ⟨2, ![M, 1]⟩ (Scalar.ofBits .f32 w)))
        (broadcast ⟨2, ![M, 1]⟩ (Scalar.ofBits .f32 0x3727C5AC#32)))) bMH))
      (broadcastTo ⟨2, ![M, H]⟩ (shapeCast ⟨2, ![1, H]⟩ g c1H) bRow))
      (broadcastTo ⟨2, ![M, H]⟩ (shapeCast ⟨2, ![1, H]⟩ be c1H) bRow))
    (broadcast ⟨2, ![M, H]⟩ (Scalar.ofBits .f32 0x00000000#32))

theorem normBody_apply {M H : ℕ} (w : BitVec 32)
    (c1H : (⟨2, ![1, H]⟩ : Shape).ShapeCasts ⟨2, ![1, H]⟩) (cCol : (⟨1, ![M]⟩ : Shape).ShapeCasts ⟨2, ![M, 1]⟩)
    (bMH : (⟨2, ![M, 1]⟩ : Shape).Broadcasts ⟨2, ![M, H]⟩) (bRow : (⟨2, ![1, H]⟩ : Shape).Broadcasts ⟨2, ![M, H]⟩)
    (red : (⟨2, ![M, H]⟩ : Shape).Reduces [1] ⟨1, ![M]⟩)
    (y : FVec Ideal ⟨2, ![M, H]⟩ .f32) (g be : FVec Ideal ⟨2, ![1, H]⟩ .f32) (p : Fin M) (q : Fin H) :
    normBody w c1H cCol bMH bRow red y g be (ix2 p q)
      = norm (Ideal.ofBits .f32 w) (fun j => y (ix2 p j)) (fun j => g (ix2 (0 : Fin 1) j)) (fun j => be (ix2 (0 : Fin 1) j)) q := by
  unfold normBody norm
  -- the row mean, as a column
  generalize hmu_def : divf (shapeCast ⟨2, ![M, 1]⟩ (multiReduction .add [1] ⟨1, ![M]⟩ y 0x00000000#32 red (.inl rfl) rfl) cCol)
      (broadcast ⟨2, ![M, 1]⟩ (Scalar.ofBits .f32 w)) = mu
  have hmu : ∀ z : Fin 1, mu (ix2 p z) = Ideal.div (∑ j : Fin H, y (ix2 p j)) (Ideal.ofBits .f32 w) := by
    intro z; rw [← hmu_def, divf_apply, rowsum_col, broadcast_apply]; rfl
  -- the tile with each row's mean taken off
  generalize hc_def : subf y (broadcastTo ⟨2, ![M, H]⟩ mu bMH) = c
  have hc : ∀ j : Fin H, c (ix2 p j) = y (ix2 p j) - Ideal.div (∑ j' : Fin H, y (ix2 p j')) (Ideal.ofBits .f32 w) := by
    intro j; rw [← hc_def, subf_apply, Cert.LibColumn.broadcastTo_a1_ab_apply, hmu]
  rw [maximumf_apply, addf_apply, mulf_apply, mulf_apply, hc, Cert.LibColumn.broadcastTo_a1_ab_apply, rsqrt_apply, addf_apply,
    divf_apply, rowsum_col, broadcast_apply, broadcast_apply, LibGraphConv.broadcastTo_row_apply,
    LibGraphConv.broadcastTo_row_apply, shapeCast_self, shapeCast_self, broadcast_apply]
  simp only [mulf_apply, hc]
  show max _ (Ideal.ofBits .f32 0x00000000#32) = _
  rw [Ideal.ofBits_zero_f32]
  rfl

/-- The layer's tile. -/
def lnBody {M K H : ℕ} (w : BitVec 32) (d : DotDims ⟨2, ![M, K]⟩ ⟨2, ![K, H]⟩ ⟨2, ![M, H]⟩)
    (hbf : FTy.bf16.bits < FTy.f32.bits)
    (cMK : (⟨2, ![M, K]⟩ : Shape).ShapeCasts ⟨2, ![M, K]⟩) (cM1 : (⟨2, ![M, 1]⟩ : Shape).ShapeCasts ⟨2, ![M, 1]⟩)
    (c1H : (⟨2, ![1, H]⟩ : Shape).ShapeCasts ⟨2, ![1, H]⟩) (cCol : (⟨1, ![M]⟩ : Shape).ShapeCasts ⟨2, ![M, 1]⟩)
    (bMK : (⟨2, ![M, 1]⟩ : Shape).Broadcasts ⟨2, ![M, K]⟩) (bMH : (⟨2, ![M, 1]⟩ : Shape).Broadcasts ⟨2, ![M, H]⟩)
    (bRow : (⟨2, ![1, H]⟩ : Shape).Broadcasts ⟨2, ![M, H]⟩)
    (red : (⟨2, ![M, H]⟩ : Shape).Reduces [1] ⟨1, ![M]⟩)
    (v0 : FVec Ideal ⟨2, ![M, K]⟩ .f32) (v2 : FVec Ideal ⟨2, ![M, 1]⟩ .f32) (v7 : FVec Ideal ⟨2, ![M, K]⟩ .f32)
    (v10 v12 : FVec Ideal ⟨2, ![K, H]⟩ .f32) (v15 v39 v43 : FVec Ideal ⟨2, ![1, H]⟩ .f32) : FVec Ideal ⟨2, ![M, H]⟩ .f32 :=
  normBody w c1H cCol bMH bRow red (preBody d hbf cMK cM1 c1H bMK bRow v0 v2 v7 v10 v12 v15) v39 v43

theorem lnBody_apply {M K H : ℕ} (w : BitVec 32) (d : DotDims ⟨2, ![M, K]⟩ ⟨2, ![K, H]⟩ ⟨2, ![M, H]⟩) (hd : d = DotDims.plain M K H)
    (hbf : FTy.bf16.bits < FTy.f32.bits)
    (cMK : (⟨2, ![M, K]⟩ : Shape).ShapeCasts ⟨2, ![M, K]⟩) (cM1 : (⟨2, ![M, 1]⟩ : Shape).ShapeCasts ⟨2, ![M, 1]⟩)
    (c1H : (⟨2, ![1, H]⟩ : Shape).ShapeCasts ⟨2, ![1, H]⟩) (cCol : (⟨1, ![M]⟩ : Shape).ShapeCasts ⟨2, ![M, 1]⟩)
    (bMK : (⟨2, ![M, 1]⟩ : Shape).Broadcasts ⟨2, ![M, K]⟩) (bMH : (⟨2, ![M, 1]⟩ : Shape).Broadcasts ⟨2, ![M, H]⟩)
    (bRow : (⟨2, ![1, H]⟩ : Shape).Broadcasts ⟨2, ![M, H]⟩)
    (red : (⟨2, ![M, H]⟩ : Shape).Reduces [1] ⟨1, ![M]⟩)
    (v0 : FVec Ideal ⟨2, ![M, K]⟩ .f32) (v2 : FVec Ideal ⟨2, ![M, 1]⟩ .f32) (v7 : FVec Ideal ⟨2, ![M, K]⟩ .f32)
    (v10 v12 : FVec Ideal ⟨2, ![K, H]⟩ .f32) (v15 v39 v43 : FVec Ideal ⟨2, ![1, H]⟩ .f32) (p : Fin M) (q : Fin H) :
    lnBody w d hbf cMK cM1 c1H cCol bMK bMH bRow red v0 v2 v7 v10 v12 v15 v39 v43 (ix2 p q)
      = norm (Ideal.ofBits .f32 w) (pre (Cert.Sage.rowScale v0 v2) v7 v10 v12 (fun j => v15 (ix2 (0 : Fin 1) j)) p)
          (fun j => v39 (ix2 (0 : Fin 1) j)) (fun j => v43 (ix2 (0 : Fin 1) j)) q := by
  unfold lnBody
  rw [normBody_apply]
  refine congrArg (fun y => norm (Ideal.ofBits .f32 w) y (fun j => v39 (ix2 (0 : Fin 1) j)) (fun j => v43 (ix2 (0 : Fin 1) j)) q) ?_
  exact funext fun j => preBody_apply d hd hbf cMK cM1 c1H bMK bRow v0 v2 v7 v10 v12 v15 p j

end Cert.Gnn

end
-- ==== Proof.KDefs.lean ====
/-
  The host-side functions of the kernel's program, named once, and the network it computes as one function of its
  fourteen arguments.

  From the edge table `e` (two rows of 800000 signed words): `srcCol`, the source node of every edge as a one-column
  index table, a negative word wrapped once by adding the node count; `dstCol`, the destination likewise, unwrapped;
  `agg e h`, the rows of `h` fetched at the sources and summed at the destinations; `deg e`, the number of edges into each
  node; `dinv e`, the column 1 / max(deg, 1).  `net` is the projection followed by two layers, each over the neighbour
  sums scaled row by row by `dinv`.
-/
import proofs.«180277_j29008209117550_1_alg».proof.Proof.Gen.KernelIdeal
import proofs.«180277_j29008209117550_1_alg».proof.Proof.Spec
import proofs.«180277_j29008209117550_1_alg».proof.Proof.LibSageLayer

noncomputable section

namespace Cert.KernelIdeal.HostFn

open Cert.KernelIdeal Cert.KernelIdeal.Gen Idealize.ShloMosaic Idealize.ShloMosaic.ValueIdx

abbrev Edges := (⟨S2x800000, .i32⟩ : BufTy).Contents (Elt Ideal)

def srcVec (e : Edges) : (⟨S800000, .i32⟩ : BufTy).Contents (Elt Ideal) :=
  shapeCast _ (extractStridedSlice S1x800000 ![0, 0] e slices_S2x800000_S1x800000_0_0) shapeCasts_S1x800000_S800000

def dstVec (e : Edges) : (⟨S800000, .i32⟩ : BufTy).Contents (Elt Ideal) :=
  shapeCast _ (extractStridedSlice S1x800000 ![1, 0] e slices_S2x800000_S1x800000_1_0) shapeCasts_S1x800000_S800000

def srcCol (e : Edges) : (⟨S800000x1, .i32⟩ : BufTy).Contents (Elt Ideal) :=
  broadcastInDim S800000x1 ![0] bcast_S800000_S800000x1_0
    (select (cmpi .slt (srcVec e) (broadcastInDim S800000 ![] bcast_S_S800000 (constantI S_ 32 0#32)))
      (addi (srcVec e) (broadcastInDim S800000 ![] bcast_S_S800000 (constantI S_ 32 50000#32))) (srcVec e))

def dstCol (e : Edges) : (⟨S800000x1, .i32⟩ : BufTy).Contents (Elt Ideal) :=
  broadcastInDim S800000x1 ![0] bcast_S800000_S800000x1_0 (dstVec e)

def agg (e : Edges) (h : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32)) (dstCol e)
    (Host.gather gather_S50000x64_S800000x1_S800000x64_1_0_n_n_0_1_164 h (srcCol e))

def deg (e : Edges) : FVec Ideal S50000 .f32 :=
  Host.scatterAdd (F := Ideal) scatter_S50000_S800000x1_S800000_n_0_0_1
    (broadcastInDim S50000 ![] bcast_S_S50000 (constant (F := Ideal) S_ .f32 0x00000000#32)) (dstCol e)
    (broadcastInDim S800000 ![] bcast_S_S800000 (constant (F := Ideal) S_ .f32 0x3F800000#32))

def dinv (e : Edges) : FVec Ideal S50000x1 .f32 :=
  shapeCast S50000x1
    (Host.divf (F := Ideal) (broadcastInDim S50000 ![] bcast_S_S50000 (constant (F := Ideal) S_ .f32 0x3F800000#32))
      (maximumf (F := Ideal) (deg e) (broadcastInDim S50000 ![] bcast_S_S50000 (constant (F := Ideal) S_ .f32 0x3F800000#32))))
    shapeCasts_S50000_S50000x1

/-- The rows of `h` averaged over each node's incoming edges, as the kernel's program forms them. -/
def meanK (e : Edges) (h : FVec Ideal S50000x64 .f32) : FVec Ideal ⟨2, ![50000, 64]⟩ .f32 :=
  Cert.Sage.rowScale (N := 50000) (K := 64) (agg e h) (dinv e)

def h0 (x : (⟨S50000x6, .f32⟩ : BufTy).Contents (Elt Ideal)) (W : (⟨S6x64, .f32⟩ : BufTy).Contents (Elt Ideal))
    (b : (⟨S64, .f32⟩ : BufTy).Contents (Elt Ideal)) : FVec Ideal ⟨2, ![50000, 64]⟩ .f32 :=
  Cert.Gnn.proj (N := 50000) (K := 6) (H := 64) x W (fun q => b (ix1 q))

def h1 (e : Edges) (h : FVec Ideal ⟨2, ![50000, 64]⟩ .f32) (Wl : (⟨S64x64, .f32⟩ : BufTy).Contents (Elt Ideal))
    (bl : (⟨S64, .f32⟩ : BufTy).Contents (Elt Ideal)) (Wr : (⟨S64x64, .f32⟩ : BufTy).Contents (Elt Ideal))
    (g be : (⟨S64, .f32⟩ : BufTy).Contents (Elt Ideal)) : FVec Ideal ⟨2, ![50000, 64]⟩ .f32 :=
  Cert.Gnn.layer (N := 50000) (K := 64) (H := 64) (Ideal.ofBits .f32 0x42800000#32) (meanK e h) h Wl Wr
    (fun q => bl (ix1 q)) (fun q => g (ix1 q)) (fun q => be (ix1 q))

def h2 (e : Edges) (h : FVec Ideal ⟨2, ![50000, 64]⟩ .f32) (Wl : (⟨S64x128, .f32⟩ : BufTy).Contents (Elt Ideal))
    (bl : (⟨S128, .f32⟩ : BufTy).Contents (Elt Ideal)) (Wr : (⟨S64x128, .f32⟩ : BufTy).Contents (Elt Ideal))
    (g be : (⟨S128, .f32⟩ : BufTy).Contents (Elt Ideal)) : FVec Ideal ⟨2, ![50000, 128]⟩ .f32 :=
  Cert.Gnn.layer (N := 50000) (K := 64) (H := 128) (Ideal.ofBits .f32 0x43000000#32) (meanK e h) h Wl Wr
    (fun q => bl (ix1 q)) (fun q => g (ix1 q)) (fun q => be (ix1 q))

/-- The whole network. -/
def net (x : (⟨S50000x6, .f32⟩ : BufTy).Contents (Elt Ideal)) (e : Edges) (W_in : (⟨S6x64, .f32⟩ : BufTy).Contents (Elt Ideal))
    (b_in : (⟨S64, .f32⟩ : BufTy).Contents (Elt Ideal)) (Wl1 : (⟨S64x64, .f32⟩ : BufTy).Contents (Elt Ideal))
    (bl1 : (⟨S64, .f32⟩ : BufTy).Contents (Elt Ideal)) (Wr1 : (⟨S64x64, .f32⟩ : BufTy).Contents (Elt Ideal))
    (g1 be1 : (⟨S64, .f32⟩ : BufTy).Contents (Elt Ideal)) (Wl2 : (⟨S64x128, .f32⟩ : BufTy).Contents (Elt Ideal))
    (bl2 : (⟨S128, .f32⟩ : BufTy).Contents (Elt Ideal)) (Wr2 : (⟨S64x128, .f32⟩ : BufTy).Contents (Elt Ideal))
    (g2 be2 : (⟨S128, .f32⟩ : BufTy).Contents (Elt Ideal)) : FVec Ideal ⟨2, ![50000, 128]⟩ .f32 :=
  h2 e (h1 e (h0 x W_in b_in) Wl1 bl1 Wr1 g1 be1) Wl2 bl2 Wr2 g2 be2

end Cert.KernelIdeal.HostFn

end
-- ==== Proof.Region0.lean ====
/-
  Region 0 (the input projection): after its ten grid points the output array holds, whole, the projection of the
  arrays the region found — block t of 5000 rows is the body's tile of rows 5000·t … 5000·t + 4999, and the ten blocks
  tile the 50000 rows.
-/
import proofs.«180277_j29008209117550_1_alg».proof.Proof.Gen.KernelIdeal.Frame
import proofs.«180277_j29008209117550_1_alg».proof.Proof.Spec
import proofs.«180277_j29008209117550_1_alg».proof.Proof.LibSageLayer
import Idealize.ShloMosaic.Lib.Pipeline.Value
import Idealize.ShloMosaic.Lib.ValueIdx

set_option maxRecDepth 16384

noncomputable section

namespace Cert.KernelIdeal.RegionValue.R0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero block offset, as the constant function. -/
theorem zero_off : (![0, 0] : Fin 2 → Nat) = fun _ => 0 := funext fun a => by fin_cases a <;> rfl

/-- The product's dimension numbers are the plain ones: the left operand's columns against the right operand's rows. -/
theorem dot_plain : dot_S5000x6_S6x64_S5000x64_1_0_0_1_n_n = DotDims.plain 5000 6 64 := rfl

/-- The body's payload is the specification's row tile of the projection. -/
theorem pay_eq (x0 : Vec Ideal S5000x6 .f32) (x1 : Vec Ideal S6x64 .f32) (x2 : Vec Ideal S1x64 .f32) :
    k0_pay1 (F := Ideal) x0 x1 x2
      = Cert.Gnn.projBody dot_S5000x6_S6x64_S5000x64_1_0_0_1_n_n bitsLt_bf16_f32 shapeCasts_S1x64_S1x64
          broadcasts_S1x64_S5000x64 x0 x1 x2 := rfl

/-- The tile at the entry (a, b): the clamped affine form of row a of the first block against column b. -/
theorem tile_apply (x0 : Vec Ideal S5000x6 .f32) (x1 : Vec Ideal S6x64 .f32) (x2 : Vec Ideal S1x64 .f32)
    (a : Fin 5000) (b : Fin 64) :
    k0_pay1 (F := Ideal) x0 x1 x2 (ix2 a b)
      = max ((∑ k : Fin 6, x0 (ix2 a k) * x1 (ix2 k b)) + x2 (ix2 (0 : Fin 1) b)) 0 := by
  rw [pay_eq]
  exact Cert.Gnn.projBody_apply _ dot_plain _ _ _ x0 x1 x2 a b

/-- The index maps over the grid: the input rows and the output rows move with the point, the weight and the bias
    row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the input rows, at (a, k), is row 5000·t + a of the array. -/
theorem rows_blk_apply (c : Dev nD) (t : Fin cfg0.N) (a : Fin 5000) (k : Fin 6) (h : 5000 * t.val + a.val < 50000) :
    (iblk0 V c 0 t : S5000x6.Idx → EReal) (ix2 a k)
      = (V c main_arg0 : S50000x6.Idx → EReal) (ix2 (⟨5000 * t.val + a.val, h⟩ : Fin 50000) k) := by
  obtain ⟨e0, e1, -⟩ := idx_facts t
  show V c main_arg0 (((cfg0.win 0).blk t).view.emb (ix2 a k)) = V c main_arg0 _
  refine congrArg _ ?_
  funext ax; apply Fin.ext
  match ax with
  | ⟨0, _⟩ => show win0_0.index t (0 : Fin 2) * 5000 + 1 * a.val = 5000 * t.val + a.val; rw [e0]; omega
  | ⟨1, _⟩ => show win0_0.index t (1 : Fin 2) * 6 + 1 * k.val = k.val; rw [e1]; omega

/-- The weight's one block is the whole array. -/
theorem weight_blk_apply (c : Dev nD) (t : Fin cfg0.N) (k : Fin 6) (b : Fin 64) :
    (iblk0 V c 1 t : S6x64.Idx → EReal) (ix2 k b) = (V c main_arg2 : S6x64.Idx → EReal) (ix2 k b) := by
  obtain ⟨-, -, e2, e3, -⟩ := idx_facts t
  show V c main_arg2 (((cfg0.win 1).blk t).view.emb (ix2 k b)) = V c main_arg2 _
  refine congrArg _ ?_
  funext ax; apply Fin.ext
  match ax with
  | ⟨0, _⟩ => show win0_1.index t (0 : Fin 2) * 6 + 1 * k.val = k.val; rw [e2]; omega
  | ⟨1, _⟩ => show win0_1.index t (1 : Fin 2) * 64 + 1 * b.val = b.val; rw [e3]; omega

/-- The bias row's one block is the whole row. -/
theorem bias_blk_apply (c : Dev nD) (t : Fin cfg0.N) (b : Fin 64) :
    (iblk0 V c 2 t : S1x64.Idx → EReal) (ix2 (0 : Fin 1) b) = (V c main_v13 : S1x64.Idx → EReal) (ix2 (0 : Fin 1) b) := by
  obtain ⟨-, -, -, -, e4, e5, -⟩ := idx_facts t
  show V c main_v13 (((cfg0.win 2).blk t).view.emb (ix2 (0 : Fin 1) b)) = V c main_v13 _
  refine congrArg _ ?_
  funext ax; apply Fin.ext
  match ax with
  | ⟨0, _⟩ => show win0_2.index t (0 : Fin 2) * 1 + 1 * (0 : Fin 1).val = (0 : Fin 1).val; rw [e4]; rfl
  | ⟨1, _⟩ => show win0_2.index t (1 : Fin 2) * 64 + 1 * b.val = b.val; rw [e5]; omega

/-- The output's block t, at (a, b), sits at row 5000·t + a of the array. -/
theorem out_blk_emb (t : Fin cfg0.N) (a : Fin 5000) (b : Fin 64) (h : 5000 * t.val + a.val < 50000) :
    (((cfg0.win 3).blk t).view.emb (ix2 a b) : S50000x64.Idx) = ix2 (⟨5000 * t.val + a.val, h⟩ : Fin 50000) b := by
  obtain ⟨-, -, -, -, -, -, e6, e7⟩ := idx_facts t
  funext ax; apply Fin.ext
  match ax with
  | ⟨0, _⟩ => show win0_3.index t (0 : Fin 2) * 5000 + 1 * a.val = 5000 * t.val + a.val; rw [e6]; omega
  | ⟨1, _⟩ => show win0_3.index t (1 : Fin 2) * 64 + 1 * b.val = b.val; rw [e7]; omega

/-- The projection of the arrays the region found. -/
abbrev projOf (c : Dev nD) : S50000x64.Idx → EReal :=
  Cert.Gnn.proj (N := 50000) (K := 6) (H := 64) (V c main_arg0) (V c main_arg2)
    (fun q => (V c main_v13 : S1x64.Idx → EReal) (ix2 (0 : Fin 1) q))

/-- What point t writes back is block t of the projection. -/
theorem flushed_eq (c : Dev nD) (t : Fin cfg0.N) :
    (dat0 (F := Ideal) V c).flushed 3 t = ((cfg0.win 3).blk t).view.read (Elt Ideal) (projOf V c) := by
  show (cfg0.win 3).cut (grid0.coords t) ((dat0 V c).after 3 t) = _
  rw [after0_3]
  unfold out0_3
  rw [View.canon_unit_zero zero_off]
  simp only [View.ld_unit_zero (S := S5000x6) zero_off, View.ld_unit_zero (S := S6x64) zero_off,
    View.ld_unit_zero (S := S1x64) zero_off]
  have ht : t.val < 10 := lt_of_lt_of_eq t.isLt N_0
  funext j
  obtain ⟨a, b, rfl⟩ : ∃ (a : Fin 5000) (b : Fin 64), j = ix2 a b := ⟨j 0, j 1, eq_ix2 j⟩
  have h : 5000 * t.val + a.val < 50000 := by have := a.isLt; omega
  refine (tile_apply _ _ _ a b).trans ?_
  rw [View.read_apply, out_blk_emb t a b h]
  unfold projOf
  rw [Cert.Gnn.proj_apply]
  congr 1
  congr 1
  · exact Finset.sum_congr rfl fun k _ => by rw [rows_blk_apply V c t a k h, weight_blk_apply V c t k b]
  · exact bias_blk_apply V c t b

/-- A row of the array is in point t's block iff it lies in rows 5000·t … 5000·t + 4999 (and its column in 0 … 63). -/
theorem mem_out_blk (t : Fin cfg0.N) (i : S50000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v14).slice (win0_3.rect t)).set ↔ _
  rw [View.set_slice_whole, Rect.mem_set_unit]
  exact Iff.rfl

/-- The ten blocks tile the 50000 rows: row r is in the block of point r / 5000. -/
theorem rows_covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts t
  have e6' : win0_3.index t (0 : Fin 2) = (i 0).val / 5000 := e6
  refine ⟨t, flush0_3 t, ?_⟩
  rw [mem_out_blk]
  intro a
  match a with
  | ⟨0, _⟩ =>
    show win0_3.index t (0 : Fin 2) * 5000 ≤ (i 0).val ∧ (i 0).val < win0_3.index t (0 : Fin 2) * 5000 + 5000
    rw [e6']; omega
  | ⟨1, _⟩ =>
    show win0_3.index t (1 : Fin 2) * 64 ≤ (i 1).val ∧ (i 1).val < win0_3.index t (1 : Fin 2) * 64 + 64
    rw [e7]; omega

/-- The projection's output array after the region, as one function of the entry contents. -/
theorem region0_value (c : Dev nD) :
    (dat0 (F := Ideal) V c).arrAt 3 cfg0.N
      = Cert.Gnn.proj (N := 50000) (K := 6) (H := 64) (V c main_arg0) (V c main_arg2)
          (fun q => (V c main_v13 : S1x64.Idx → EReal) (ix2 (0 : Fin 1) q)) := by
  exact (dat0 (F := Ideal) V c).arrAt_eq_of_cover 3 (projOf V c) (fun t _ => flushed_eq V c t) rows_covered

end Cert.KernelIdeal.RegionValue.R0

namespace Cert.KernelIdeal.RegionValue

export R0 (region0_value)

end Cert.KernelIdeal.RegionValue

end
-- ==== Proof.Region1.lean ====
/-
  Region 1 (the first graph-convolution layer): after its twenty-five grid points the output array holds, whole, the
  layer of the arrays the region found — block t of 2000 rows is the body's tile of rows 2000·t … 2000·t + 1999 (the
  layer is row-local: a row of the result needs that row of the sums, of the factor column and of the features, and the
  whole weight and row arrays), and the twenty-five blocks tile the 50000 rows.
-/
import proofs.«180277_j29008209117550_1_alg».proof.Proof.Gen.KernelIdeal.Frame
import proofs.«180277_j29008209117550_1_alg».proof.Proof.Spec
import proofs.«180277_j29008209117550_1_alg».proof.Proof.LibSageLayer
import Idealize.ShloMosaic.Lib.Pipeline.Value
import Idealize.ShloMosaic.Lib.ValueIdx

set_option maxRecDepth 16384

noncomputable section

namespace Cert.KernelIdeal.RegionValue.R1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of an access to a whole buffer, as the constant function. -/
theorem zeroOffsets : (![0, 0] : Fin 2 → Nat) = fun _ => 0 := funext fun a => by fin_cases a <;> rfl

/-- The body's two products contract the left factor's columns against the right factor's rows, no batch axis. -/
theorem tileDot_plain : dot_S2000x64_S64x64_S2000x64_1_0_0_1_n_n = DotDims.plain 2000 64 64 := rfl

/-- The body's stored value is the layer's row tile of its loaded blocks. -/
theorem tile_eq (v0 : Vec Ideal S2000x64 .f32) (v2 : Vec Ideal S2000x1 .f32) (v7 : Vec Ideal S2000x64 .f32)
    (v10 v12 : Vec Ideal S64x64 .f32) (v15 v39 v43 : Vec Ideal S1x64 .f32) :
    k1_pay1 (F := Ideal) (k1_pay2 v0 v2 v7 v10 v12 v15) v39 v43
      = Cert.Gnn.lnBody 0x42800000#32 dot_S2000x64_S64x64_S2000x64_1_0_0_1_n_n bitsLt_bf16_f32
          shapeCasts_S2000x64_S2000x64 shapeCasts_S2000x1_S2000x1 shapeCasts_S1x64_S1x64 shapeCasts_S2000_S2000x1
          broadcasts_S2000x1_S2000x64 broadcasts_S2000x1_S2000x64 broadcasts_S1x64_S2000x64 reduces_S2000x64_S2000
          v0 v2 v7 v10 v12 v15 v39 v43 := rfl

/-- The printed index maps over the twenty-five points: the three row-tiled inputs and the output sit at block (t, 0),
    the weight and row arrays at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A grid point is below twenty-five. -/
theorem point_lt (t : Fin cfg1.N) : t.val < 25 := lt_of_lt_of_eq t.isLt N_1

/-! ## The input blocks at a grid point, as entries of the arrays the region found -/

/-- Row a of the block of neighbour sums at point t is row 2000·t + a of the array of sums. -/
theorem sums_block (c : Dev nD) (t : Fin cfg1.N) (a : Fin 2000) (k : Fin 64) (h : 2000 * t.val + a.val < 50000) :
    (iblk1 V c 0 t : Vec Ideal S2000x64 .f32) (ix2 a k)
      = (V c main_v24 : S50000x64.Idx → EReal) (ix2 ⟨2000 * t.val + a.val, h⟩ k) := by
  obtain ⟨e0, e1, -⟩ := blockIndex t
  show V c main_v24 (((cfg1.win 0).blk t).view.emb (ix2 a k)) = V c main_v24 _
  refine congrArg _ (funext fun ax => Fin.ext ?_)
  match ax with
  | ⟨0, _⟩ => show win1_0.index t (0 : Fin 2) * 2000 + 1 * a.val = 2000 * t.val + a.val; omega
  | ⟨1, _⟩ => show win1_0.index t (1 : Fin 2) * 64 + 1 * k.val = k.val; omega

/-- Row a of the block of the factor column at point t is row 2000·t + a of the column. -/
theorem factor_block (c : Dev nD) (t : Fin cfg1.N) (a : Fin 2000) (z : Fin 1) (h : 2000 * t.val + a.val < 50000) :
    (iblk1 V c 1 t : Vec Ideal S2000x1 .f32) (ix2 a z)
      = (V c main_v12 : S50000x1.Idx → EReal) (ix2 ⟨2000 * t.val + a.val, h⟩ z) := by
  obtain ⟨-, -, e0, e1, -⟩ := blockIndex t
  show V c main_v12 (((cfg1.win 1).blk t).view.emb (ix2 a z)) = V c main_v12 _
  refine congrArg _ (funext fun ax => Fin.ext ?_)
  match ax with
  | ⟨0, _⟩ => show win1_1.index t (0 : Fin 2) * 2000 + 1 * a.val = 2000 * t.val + a.val; omega
  | ⟨1, _⟩ => show win1_1.index t (1 : Fin 2) * 1 + 1 * z.val = z.val; omega

/-- Row a of the block of features at point t is row 2000·t + a of the array of features. -/
theorem features_block (c : Dev nD) (t : Fin cfg1.N) (a : Fin 2000) (k : Fin 64) (h : 2000 * t.val + a.val < 50000) :
    (iblk1 V c 2 t : Vec Ideal S2000x64 .f32) (ix2 a k)
      = (V c main_v14 : S50000x64.Idx → EReal) (ix2 ⟨2000 * t.val + a.val, h⟩ k) := by
  obtain ⟨-, -, -, -, e0, e1, -⟩ := blockIndex t
  show V c main_v14 (((cfg1.win 2).blk t).view.emb (ix2 a k)) = V c main_v14 _
  refine congrArg _ (funext fun ax => Fin.ext ?_)
  match ax with
  | ⟨0, _⟩ => show win1_2.index t (0 : Fin 2) * 2000 + 1 * a.val = 2000 * t.val + a.val; omega
  | ⟨1, _⟩ => show win1_2.index t (1 : Fin 2) * 64 + 1 * k.val = k.val; omega

/-- The left weight's block at every point is the whole left weight. -/
theorem leftWeight_block (c : Dev nD) (t : Fin cfg1.N) (p q : Fin 64) :
    (iblk1 V c 3 t : Vec Ideal S64x64 .f32) (ix2 p q) = (V c main_arg4 : S64x64.Idx → EReal) (ix2 p q) := by
  obtain ⟨-, -, -, -, -, -, e0, e1, -⟩ := blockIndex t
  show V c main_arg4 (((cfg1.win 3).blk t).view.emb (ix2 p q)) = V c main_arg4 _
  refine congrArg _ (funext fun ax => Fin.ext ?_)
  match ax with
  | ⟨0, _⟩ => show win1_3.index t (0 : Fin 2) * 64 + 1 * p.val = p.val; omega
  | ⟨1, _⟩ => show win1_3.index t (1 : Fin 2) * 64 + 1 * q.val = q.val; omega

/-- The bias row's block at every point is the whole bias row. -/
theorem bias_block (c : Dev nD) (t : Fin cfg1.N) (z : Fin 1) (q : Fin 64) :
    (iblk1 V c 4 t : Vec Ideal S1x64 .f32) (ix2 z q) = (V c main_v25 : S1x64.Idx → EReal) (ix2 z q) := by
  obtain ⟨-, -, -, -, -, -, -, -, e0, e1, -⟩ := blockIndex t
  show V c main_v25 (((cfg1.win 4).blk t).view.emb (ix2 z q)) = V c main_v25 _
  refine congrArg _ (funext fun ax => Fin.ext ?_)
  match ax with
  | ⟨0, _⟩ => show win1_4.index t (0 : Fin 2) * 1 + 1 * z.val = z.val; omega
  | ⟨1, _⟩ => show win1_4.index t (1 : Fin 2) * 64 + 1 * q.val = q.val; omega

/-- The right weight's block at every point is the whole right weight. -/
theorem rightWeight_block (c : Dev nD) (t : Fin cfg1.N) (p q : Fin 64) :
    (iblk1 V c 5 t : Vec Ideal S64x64 .f32) (ix2 p q) = (V c main_arg6 : S64x64.Idx → EReal) (ix2 p q) := by
  obtain ⟨-, -, -, -, -, -, -, -, -, -, e0, e1, -⟩ := blockIndex t
  show V c main_arg6 (((cfg1.win 5).blk t).view.emb (ix2 p q)) = V c main_arg6 _
  refine congrArg _ (funext fun ax => Fin.ext ?_)
  match ax with
  | ⟨0, _⟩ => show win1_5.index t (0 : Fin 2) * 64 + 1 * p.val = p.val; omega
  | ⟨1, _⟩ => show win1_5.index t (1 : Fin 2) * 64 + 1 * q.val = q.val; omega

/-- The scale row's block at every point is the whole scale row. -/
theorem scale_block (c : Dev nD) (t : Fin cfg1.N) (z : Fin 1) (q : Fin 64) :
    (iblk1 V c 6 t : Vec Ideal S1x64 .f32) (ix2 z q) = (V c main_v26 : S1x64.Idx → EReal) (ix2 z q) := by
  obtain ⟨-, -, -, -, -, -, -, -, -, -, -, -, e0, e1, -⟩ := blockIndex t
  show V c main_v26 (((cfg1.win 6).blk t).view.emb (ix2 z q)) = V c main_v26 _
  refine congrArg _ (funext fun ax => Fin.ext ?_)
  match ax with
  | ⟨0, _⟩ => show win1_6.index t (0 : Fin 2) * 1 + 1 * z.val = z.val; omega
  | ⟨1, _⟩ => show win1_6.index t (1 : Fin 2) * 64 + 1 * q.val = q.val; omega

/-- The shift row's block at every point is the whole shift row. -/
theorem shift_block (c : Dev nD) (t : Fin cfg1.N) (z : Fin 1) (q : Fin 64) :
    (iblk1 V c 7 t : Vec Ideal S1x64 .f32) (ix2 z q) = (V c main_v27 : S1x64.Idx → EReal) (ix2 z q) := by
  obtain ⟨-, -, -, -, -, -, -, -, -, -, -, -, -, -, e0, e1, -⟩ := blockIndex t
  show V c main_v27 (((cfg1.win 7).blk t).view.emb (ix2 z q)) = V c main_v27 _
  refine congrArg _ (funext fun ax => Fin.ext ?_)
  match ax with
  | ⟨0, _⟩ => show win1_7.index t (0 : Fin 2) * 1 + 1 * z.val = z.val; omega
  | ⟨1, _⟩ => show win1_7.index t (1 : Fin 2) * 64 + 1 * q.val = q.val; omega

/-! ## A point's tile is its block of the layer -/

/-- Row a of the tile of blocks that agree, row a against row r, with whole arrays is row r of the layer of those
    arrays: the layer's row needs that row of the sums, of the factor column and of the features, and all of the
    weights and of the three rows. -/
theorem tile_row (X0 : Vec Ideal S2000x64 .f32) (X1 : Vec Ideal S2000x1 .f32) (X2 : Vec Ideal S2000x64 .f32)
    (X3 X5 : Vec Ideal S64x64 .f32) (X4 X6 X7 : Vec Ideal S1x64 .f32)
    (A0 : S50000x64.Idx → EReal) (A1 : S50000x1.Idx → EReal) (A2 : S50000x64.Idx → EReal)
    (W3 W5 : S64x64.Idx → EReal) (R4 R6 R7 : S1x64.Idx → EReal) (a : Fin 2000) (r : Fin 50000) (b : Fin 64)
    (h0 : ∀ k : Fin 64, X0 (ix2 a k) = A0 (ix2 r k)) (h1 : ∀ z : Fin 1, X1 (ix2 a z) = A1 (ix2 r z))
    (h2 : ∀ k : Fin 64, X2 (ix2 a k) = A2 (ix2 r k))
    (h3 : ∀ p q : Fin 64, X3 (ix2 p q) = W3 (ix2 p q)) (h5 : ∀ p q : Fin 64, X5 (ix2 p q) = W5 (ix2 p q))
    (h4 : ∀ (z : Fin 1) (q : Fin 64), X4 (ix2 z q) = R4 (ix2 z q))
    (h6 : ∀ (z : Fin 1) (q : Fin 64), X6 (ix2 z q) = R6 (ix2 z q))
    (h7 : ∀ (z : Fin 1) (q : Fin 64), X7 (ix2 z q) = R7 (ix2 z q)) :
    k1_pay1 (F := Ideal) (k1_pay2 X0 X1 X2 X3 X5 X4) X6 X7 (ix2 a b)
      = Cert.Gnn.layer (N := 50000) (K := 64) (H := 64) (Ideal.ofBits .f32 0x42800000#32)
          (Cert.Sage.rowScale (N := 50000) (K := 64) A0 A1) A2 W3 W5
          (fun q => R4 (ix2 (0 : Fin 1) q)) (fun q => R6 (ix2 (0 : Fin 1) q)) (fun q => R7 (ix2 (0 : Fin 1) q))
          (ix2 r b) := by
  rw [tile_eq, Cert.Gnn.lnBody_apply _ _ tileDot_plain, Cert.Gnn.layer_apply]
  have hpre : Cert.Gnn.pre (Cert.Sage.rowScale X0 X1) X2 X3 X5 (fun j => X4 (ix2 (0 : Fin 1) j)) a
      = Cert.Gnn.pre (Cert.Sage.rowScale (N := 50000) (K := 64) A0 A1) A2 W3 W5 (fun q => R4 (ix2 (0 : Fin 1) q)) r := by
    funext j
    unfold Cert.Gnn.pre
    simp only [Cert.Sage.rowScale_apply, h0, h1, h2, h3, h5, h4]
  rw [hpre]
  simp only [h6, h7]

/-- The layer of the arrays the region found, whole. -/
abbrev layerArray (c : Dev nD) : FVec Ideal ⟨2, ![50000, 64]⟩ .f32 :=
  Cert.Gnn.layer (N := 50000) (K := 64) (H := 64) (Ideal.ofBits .f32 0x42800000#32)
    (Cert.Sage.rowScale (N := 50000) (K := 64) (V c main_v24) (V c main_v12)) (V c main_v14) (V c main_arg4) (V c main_arg6)
    (fun q => (V c main_v25 : S1x64.Idx → EReal) (ix2 (0 : Fin 1) q))
    (fun q => (V c main_v26 : S1x64.Idx → EReal) (ix2 (0 : Fin 1) q))
    (fun q => (V c main_v27 : S1x64.Idx → EReal) (ix2 (0 : Fin 1) q))

/-- What point t writes back is block t of the layer: rows 2000·t … 2000·t + 1999. -/
theorem flushed_eq (c : Dev nD) (t : Fin cfg1.N) :
    (dat1 (F := Ideal) V c).flushed 8 t = ((cfg1.win 8).blk t).view.read (Elt Ideal) (layerArray V c) := by
  show (cfg1.win 8).cut (grid1.coords t) ((dat1 V c).after 8 t) = _
  rw [after1_8]
  unfold out1_8
  rw [View.canon_unit_zero zeroOffsets]
  simp only [View.ld_unit_zero (S := S2000x64) zeroOffsets, View.ld_unit_zero (S := S2000x1) zeroOffsets,
    View.ld_unit_zero (S := S64x64) zeroOffsets, View.ld_unit_zero (S := S1x64) zeroOffsets]
  funext j
  obtain ⟨a, b, rfl⟩ : ∃ (a : Fin 2000) (b : Fin 64), j = ix2 a b := ⟨j 0, j 1, eq_ix2 j⟩
  have ht := point_lt t
  have hr : 2000 * t.val + a.val < 50000 := by have := a.isLt; omega
  obtain ⟨-, -, -, -, -, -, -, -, -, -, -, -, -, -, -, -, e0, e1⟩ := blockIndex t
  have hemb : ((cfg1.win 8).blk t).view.emb (ix2 a b) = ix2 ⟨2000 * t.val + a.val, hr⟩ b :=
    funext fun ax => Fin.ext (by
      match ax with
      | ⟨0, _⟩ => show win1_8.index t (0 : Fin 2) * 2000 + 1 * a.val = 2000 * t.val + a.val; omega
      | ⟨1, _⟩ => show win1_8.index t (1 : Fin 2) * 64 + 1 * b.val = b.val; omega)
  refine Eq.trans ?_ (congrArg (layerArray V c) hemb).symm
  exact tile_row (iblk1 V c 0 t) (iblk1 V c 1 t) (iblk1 V c 2 t) (iblk1 V c 3 t) (iblk1 V c 5 t) (iblk1 V c 4 t)
    (iblk1 V c 6 t) (iblk1 V c 7 t) (V c main_v24) (V c main_v12) (V c main_v14) (V c main_arg4) (V c main_arg6)
    (V c main_v25) (V c main_v26) (V c main_v27) a ⟨2000 * t.val + a.val, hr⟩ b
    (fun k => sums_block V c t a k hr) (fun z => factor_block V c t a z hr) (fun k => features_block V c t a k hr)
    (leftWeight_block V c t) (rightWeight_block V c t) (bias_block V c t) (scale_block V c t) (shift_block V c t)

/-! ## The twenty-five blocks tile the array -/

/-- An entry of the array is in point t's block iff each coordinate is in the block's range on its axis. -/
theorem mem_block (t : Fin cfg1.N) (i : S50000x64.Idx) :
    i ∈ ((cfg1.win 8).blk t).view.set ↔ ∀ a : Fin 2, win1_8.index t a * S2000x64.size a ≤ (i a).val
      ∧ (i a).val < win1_8.index t a * S2000x64.size a + S2000x64.size a := by
  show i ∈ ((View.whole main_v28).slice (win1_8.rect t)).set ↔ _
  rw [View.set_slice_whole, Rect.mem_set_unit]
  exact Iff.rfl

/-- Row r of the array is in the block of point r / 2000. -/
theorem covered (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  refine ⟨t, flush1_8 t, ?_⟩
  rw [mem_block]
  obtain ⟨-, -, -, -, -, -, -, -, -, -, -, -, -, -, -, -, e0, e1⟩ := blockIndex t
  intro a
  match a with
  | ⟨0, _⟩ =>
    show win1_8.index t (0 : Fin 2) * 2000 ≤ (i 0).val ∧ (i 0).val < win1_8.index t (0 : Fin 2) * 2000 + 2000
    omega
  | ⟨1, _⟩ =>
    show win1_8.index t (1 : Fin 2) * 64 ≤ (i 1).val ∧ (i 1).val < win1_8.index t (1 : Fin 2) * 64 + 64
    omega

/-- The first layer's output array after the region, as one function of the entry contents. -/
theorem region1_value (c : Dev nD) :
    (dat1 (F := Ideal) V c).arrAt 8 cfg1.N
      = Cert.Gnn.layer (N := 50000) (K := 64) (H := 64) (Ideal.ofBits .f32 0x42800000#32)
          (Cert.Sage.rowScale (N := 50000) (K := 64) (V c main_v24) (V c main_v12)) (V c main_v14) (V c main_arg4) (V c main_arg6)
          (fun q => (V c main_v25 : S1x64.Idx → EReal) (ix2 (0 : Fin 1) q))
          (fun q => (V c main_v26 : S1x64.Idx → EReal) (ix2 (0 : Fin 1) q))
          (fun q => (V c main_v27 : S1x64.Idx → EReal) (ix2 (0 : Fin 1) q)) :=
  (dat1 (F := Ideal) V c).arrAt_eq_of_cover 8 (layerArray V c) (fun t _ => flushed_eq V c t) covered

end Cert.KernelIdeal.RegionValue.R1

namespace Cert.KernelIdeal.RegionValue

export R1 (region1_value)

end Cert.KernelIdeal.RegionValue

end
-- ==== Proof.Region2.lean ====
/-
  Region 2 (the second graph-convolution layer, 64 features in, 128 out): after its twenty-five grid points the output
  array holds, whole, the layer of the arrays the region found — block t of 2000 rows is the body's tile of rows
  2000·t … 2000·t + 1999, and the twenty-five blocks tile the 50000 rows.
-/
import proofs.«180277_j29008209117550_1_alg».proof.Proof.Gen.KernelIdeal.Frame
import proofs.«180277_j29008209117550_1_alg».proof.Proof.Spec
import proofs.«180277_j29008209117550_1_alg».proof.Proof.LibSageLayer
import Idealize.ShloMosaic.Lib.Pipeline.Value
import Idealize.ShloMosaic.Lib.ValueIdx

set_option maxRecDepth 16384

noncomputable section

namespace Cert.KernelIdeal.RegionValue.R2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The tile's matrix products contract the left operand's columns with the right operand's rows. -/
theorem dot_plain : dot_S2000x64_S64x128_S2000x128_1_0_0_1_n_n = DotDims.plain 2000 64 128 := rfl

set_option maxHeartbeats 400000 in
/-- The body's payload is the specification's row tile of the layer, at 2000 rows, 64 features in and 128 out, the
    row's width printed as 128. -/
theorem tile_eq (v0 : Vec Ideal S2000x64 .f32) (v2 : Vec Ideal S2000x1 .f32) (v7 : Vec Ideal S2000x64 .f32)
    (v10 v12 : Vec Ideal S64x128 .f32) (v15 v39 v43 : Vec Ideal S1x128 .f32) :
    k2_pay1 (F := Ideal) (k2_pay2 v0 v2 v7 v10 v12 v15) v39 v43
      = Cert.Gnn.lnBody 0x43000000#32 dot_S2000x64_S64x128_S2000x128_1_0_0_1_n_n bitsLt_bf16_f32
          shapeCasts_S2000x64_S2000x64 shapeCasts_S2000x1_S2000x1 shapeCasts_S1x128_S1x128 shapeCasts_S2000_S2000x1
          broadcasts_S2000x1_S2000x64 broadcasts_S2000x1_S2000x128 broadcasts_S1x128_S2000x128 reduces_S2000x128_S2000
          v0 v2 v7 v10 v12 v15 v39 v43 := rfl

set_option maxHeartbeats 400000 in
/-- The printed index maps over the grid: the three row-tiled inputs and the output sit at block (t, 0), the two weights
    and the three rows at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The grid has twenty-five points. -/
theorem point_lt (t : Fin cfg2.N) : t.val < 25 := by
  have h : cfg2.N = 25 := N_2
  have := t.isLt
  omega

/-- Block t of the neighbour sums is rows 2000·t … of the array. -/
theorem sums_block (c : Dev nD) (t : Fin cfg2.N) (a : Fin 2000) (k : Fin 64) :
    (iblk2 V c 0 t : Vec Ideal S2000x64 .f32) (ix2 a k)
      = (V c main_v38 : S50000x64.Idx → EReal) (ix2 ⟨2000 * t.val + a.val, by have := point_lt t; omega⟩ k) := by
  obtain ⟨e0, e1, -⟩ := index_facts t
  show V c main_v38 (((cfg2.win 0).blk t).view.emb (ix2 a k)) = V c main_v38 _
  refine congrArg _ ?_
  funext ax; apply Fin.ext
  match ax with
  | ⟨0, _⟩ => show win2_0.index t (0 : Fin 2) * 2000 + 1 * a.val = 2000 * t.val + a.val; omega
  | ⟨1, _⟩ => show win2_0.index t (1 : Fin 2) * 64 + 1 * k.val = k.val; omega

/-- Block t of the factor column is rows 2000·t … of the column. -/
theorem factor_block (c : Dev nD) (t : Fin cfg2.N) (a : Fin 2000) (z : Fin 1) :
    (iblk2 V c 1 t : Vec Ideal S2000x1 .f32) (ix2 a z)
      = (V c main_v12 : S50000x1.Idx → EReal) (ix2 ⟨2000 * t.val + a.val, by have := point_lt t; omega⟩ z) := by
  obtain ⟨-, -, e0, e1, -⟩ := index_facts t
  show V c main_v12 (((cfg2.win 1).blk t).view.emb (ix2 a z)) = V c main_v12 _
  refine congrArg _ ?_
  funext ax; apply Fin.ext
  match ax with
  | ⟨0, _⟩ => show win2_1.index t (0 : Fin 2) * 2000 + 1 * a.val = 2000 * t.val + a.val; omega
  | ⟨1, _⟩ => show win2_1.index t (1 : Fin 2) * 1 + 1 * z.val = z.val; omega

/-- Block t of the features is rows 2000·t … of the array. -/
theorem feat_block (c : Dev nD) (t : Fin cfg2.N) (a : Fin 2000) (k : Fin 64) :
    (iblk2 V c 2 t : Vec Ideal S2000x64 .f32) (ix2 a k)
      = (V c main_v28 : S50000x64.Idx → EReal) (ix2 ⟨2000 * t.val + a.val, by have := point_lt t; omega⟩ k) := by
  obtain ⟨-, -, -, -, e0, e1, -⟩ := index_facts t
  show V c main_v28 (((cfg2.win 2).blk t).view.emb (ix2 a k)) = V c main_v28 _
  refine congrArg _ ?_
  funext ax; apply Fin.ext
  match ax with
  | ⟨0, _⟩ => show win2_2.index t (0 : Fin 2) * 2000 + 1 * a.val = 2000 * t.val + a.val; omega
  | ⟨1, _⟩ => show win2_2.index t (1 : Fin 2) * 64 + 1 * k.val = k.val; omega

/-- The left weight's one block is the whole array. -/
theorem wl_block (c : Dev nD) (t : Fin cfg2.N) (k : Fin 64) (q : Fin 128) :
    (iblk2 V c 3 t : Vec Ideal S64x128 .f32) (ix2 k q) = (V c main_arg9 : S64x128.Idx → EReal) (ix2 k q) := by
  obtain ⟨-, -, -, -, -, -, e0, e1, -⟩ := index_facts t
  show V c main_arg9 (((cfg2.win 3).blk t).view.emb (ix2 k q)) = V c main_arg9 _
  refine congrArg _ ?_
  funext ax; apply Fin.ext
  match ax with
  | ⟨0, _⟩ => show win2_3.index t (0 : Fin 2) * 64 + 1 * k.val = k.val; omega
  | ⟨1, _⟩ => show win2_3.index t (1 : Fin 2) * 128 + 1 * q.val = q.val; omega

/-- The bias row's one block is the whole row. -/
theorem bias_block (c : Dev nD) (t : Fin cfg2.N) (z : Fin 1) (q : Fin 128) :
    (iblk2 V c 4 t : Vec Ideal S1x128 .f32) (ix2 z q) = (V c main_v39 : S1x128.Idx → EReal) (ix2 z q) := by
  obtain ⟨-, -, -, -, -, -, -, -, e0, e1, -⟩ := index_facts t
  show V c main_v39 (((cfg2.win 4).blk t).view.emb (ix2 z q)) = V c main_v39 _
  refine congrArg _ ?_
  funext ax; apply Fin.ext
  match ax with
  | ⟨0, _⟩ => show win2_4.index t (0 : Fin 2) * 1 + 1 * z.val = z.val; omega
  | ⟨1, _⟩ => show win2_4.index t (1 : Fin 2) * 128 + 1 * q.val = q.val; omega

/-- The right weight's one block is the whole array. -/
theorem wr_block (c : Dev nD) (t : Fin cfg2.N) (k : Fin 64) (q : Fin 128) :
    (iblk2 V c 5 t : Vec Ideal S64x128 .f32) (ix2 k q) = (V c main_arg11 : S64x128.Idx → EReal) (ix2 k q) := by
  obtain ⟨-, -, -, -, -, -, -, -, -, -, e0, e1, -⟩ := index_facts t
  show V c main_arg11 (((cfg2.win 5).blk t).view.emb (ix2 k q)) = V c main_arg11 _
  refine congrArg _ ?_
  funext ax; apply Fin.ext
  match ax with
  | ⟨0, _⟩ => show win2_5.index t (0 : Fin 2) * 64 + 1 * k.val = k.val; omega
  | ⟨1, _⟩ => show win2_5.index t (1 : Fin 2) * 128 + 1 * q.val = q.val; omega

/-- The scale row's one block is the whole row. -/
theorem scale_block (c : Dev nD) (t : Fin cfg2.N) (z : Fin 1) (q : Fin 128) :
    (iblk2 V c 6 t : Vec Ideal S1x128 .f32) (ix2 z q) = (V c main_v40 : S1x128.Idx → EReal) (ix2 z q) := by
  obtain ⟨-, -, -, -, -, -, -, -, -, -, -, -, e0, e1, -⟩ := index_facts t
  show V c main_v40 (((cfg2.win 6).blk t).view.emb (ix2 z q)) = V c main_v40 _
  refine congrArg _ ?_
  funext ax; apply Fin.ext
  match ax with
  | ⟨0, _⟩ => show win2_6.index t (0 : Fin 2) * 1 + 1 * z.val = z.val; omega
  | ⟨1, _⟩ => show win2_6.index t (1 : Fin 2) * 128 + 1 * q.val = q.val; omega

/-- The shift row's one block is the whole row. -/
theorem shift_block (c : Dev nD) (t : Fin cfg2.N) (z : Fin 1) (q : Fin 128) :
    (iblk2 V c 7 t : Vec Ideal S1x128 .f32) (ix2 z q) = (V c main_v41 : S1x128.Idx → EReal) (ix2 z q) := by
  obtain ⟨-, -, -, -, -, -, -, -, -, -, -, -, -, -, e0, e1, -⟩ := index_facts t
  show V c main_v41 (((cfg2.win 7).blk t).view.emb (ix2 z q)) = V c main_v41 _
  refine congrArg _ ?_
  funext ax; apply Fin.ext
  match ax with
  | ⟨0, _⟩ => show win2_7.index t (0 : Fin 2) * 1 + 1 * z.val = z.val; omega
  | ⟨1, _⟩ => show win2_7.index t (1 : Fin 2) * 128 + 1 * q.val = q.val; omega

/-- The layer of the arrays the region found. -/
abbrev layerOf (c : Dev nD) : S50000x128.Idx → EReal :=
  Cert.Gnn.layer (N := 50000) (K := 64) (H := 128) (Ideal.ofBits .f32 0x43000000#32)
    (Cert.Sage.rowScale (N := 50000) (K := 64) (V c main_v38) (V c main_v12)) (V c main_v28) (V c main_arg9) (V c main_arg11)
    (fun q => (V c main_v39 : S1x128.Idx → EReal) (ix2 (0 : Fin 1) q))
    (fun q => (V c main_v40 : S1x128.Idx → EReal) (ix2 (0 : Fin 1) q))
    (fun q => (V c main_v41 : S1x128.Idx → EReal) (ix2 (0 : Fin 1) q))

/-- A row of the layer before its normalisation depends only on that row of the two row-indexed arrays. -/
theorem pre_row_congr {M N K H : ℕ} (mean x : FVec Ideal ⟨2, ![M, K]⟩ .f32) (mean' x' : FVec Ideal ⟨2, ![N, K]⟩ .f32)
    (Wl Wr Wl' Wr' : FVec Ideal ⟨2, ![K, H]⟩ .f32) (bl bl' : Fin H → EReal) (p : Fin M) (p' : Fin N)
    (hm : ∀ k, mean (ix2 p k) = mean' (ix2 p' k)) (hx : ∀ k, x (ix2 p k) = x' (ix2 p' k))
    (hl : ∀ k j, Wl (ix2 k j) = Wl' (ix2 k j)) (hr : ∀ k j, Wr (ix2 k j) = Wr' (ix2 k j)) (hb : ∀ j, bl j = bl' j) :
    Cert.Gnn.pre mean x Wl Wr bl p = Cert.Gnn.pre mean' x' Wl' Wr' bl' p' := by
  funext j
  unfold Cert.Gnn.pre
  simp only [hm, hx, hl, hr, hb]

/-- The normalisation of equal rows under equal scale and shift rows. -/
theorem norm_congr {H : ℕ} (cnt : EReal) (y y' g g' be be' : Fin H → EReal) (q : Fin H)
    (hy : y = y') (hg : ∀ j, g j = g' j) (hb : ∀ j, be j = be' j) :
    Cert.Gnn.norm cnt y g be q = Cert.Gnn.norm cnt y' g' be' q := by
  rw [hy, funext hg, funext hb]

/-- Entry (a, b) of output block t sits at row 2000·t + a, column b of the array. -/
theorem out_index (t : Fin cfg2.N) (a : Fin 2000) (b : Fin 128) :
    ((cfg2.win 8).blk t).view.emb (ix2 a b)
      = (ix2 ⟨2000 * t.val + a.val, by have := point_lt t; omega⟩ b : S50000x128.Idx) := by
  obtain ⟨-, -, -, -, -, -, -, -, -, -, -, -, -, -, -, -, e0, e1⟩ := index_facts t
  funext ax; apply Fin.ext
  match ax with
  | ⟨0, _⟩ => show win2_8.index t (0 : Fin 2) * 2000 + 1 * a.val = 2000 * t.val + a.val; omega
  | ⟨1, _⟩ => show win2_8.index t (1 : Fin 2) * 128 + 1 * b.val = b.val; omega

set_option maxHeartbeats 400000 in
/-- What point t writes back is block t of the layer of the arrays the region found. -/
theorem block_written (c : Dev nD) (t : Fin cfg2.N) :
    (dat2 (F := Ideal) V c).flushed 8 t = ((cfg2.win 8).blk t).view.read (Elt Ideal) (layerOf V c) := by
  show (cfg2.win 8).cut (grid2.coords t) ((dat2 V c).after 8 t) = _
  rw [after2_8]
  unfold out2_8
  rw [View.canon_unit_zero zero_offsets]
  simp only [View.ld_unit_zero (S := S2000x64) zero_offsets, View.ld_unit_zero (S := S2000x1) zero_offsets,
    View.ld_unit_zero (S := S64x128) zero_offsets, View.ld_unit_zero (S := S1x128) zero_offsets]
  rw [tile_eq]
  funext j
  obtain ⟨a, b, rfl⟩ : ∃ (a : Fin 2000) (b : Fin 128), j = ix2 a b := ⟨j 0, j 1, eq_ix2 j⟩
  refine (Cert.Gnn.lnBody_apply 0x43000000#32 _ dot_plain _ _ _ _ _ _ _ _ _ _ _ _ _ _ _ _ _ a b).trans ?_
  show _ = layerOf V c (((cfg2.win 8).blk t).view.emb (ix2 a b))
  rw [out_index]
  refine Eq.trans ?_ (Cert.Gnn.layer_apply _ _ _ _ _ _ _ _ _ b).symm
  refine norm_congr _ _ _ _ _ _ _ b ?_ (fun j => scale_block V c t 0 j) (fun j => shift_block V c t 0 j)
  refine pre_row_congr _ _ _ _ _ _ _ _ _ _ _ _ (fun k => ?_) (fun k => feat_block V c t a k)
    (fun k j => wl_block V c t k j) (fun k j => wr_block V c t k j) (fun j => bias_block V c t 0 j)
  rw [Cert.Sage.rowScale_apply, Cert.Sage.rowScale_apply, sums_block V c t a k, factor_block V c t a 0]

/-- An index of the array is in point t's block iff each coordinate is in the block's range on its axis. -/
theorem mem_block (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v42).slice (win2_8.rect t)).set ↔ _
  rw [View.set_slice_whole, Rect.mem_set_unit]
  exact Iff.rfl

/-- The twenty-five blocks tile the 50000 rows: row r is in block r / 2000. -/
theorem blocks_cover (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, -, -, -, -, e0, e1⟩ := index_facts t
  refine ⟨t, flush2_8 t, ?_⟩
  rw [mem_block]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- The second layer's output array after the region, as one function of the entry contents. -/
theorem region2_value (c : Dev nD) :
    (dat2 (F := Ideal) V c).arrAt 8 cfg2.N
      = Cert.Gnn.layer (N := 50000) (K := 64) (H := 128) (Ideal.ofBits .f32 0x43000000#32)
          (Cert.Sage.rowScale (N := 50000) (K := 64) (V c main_v38) (V c main_v12)) (V c main_v28) (V c main_arg9) (V c main_arg11)
          (fun q => (V c main_v39 : S1x128.Idx → EReal) (ix2 (0 : Fin 1) q))
          (fun q => (V c main_v40 : S1x128.Idx → EReal) (ix2 (0 : Fin 1) q))
          (fun q => (V c main_v41 : S1x128.Idx → EReal) (ix2 (0 : Fin 1) q)) :=
  (dat2 V c).arrAt_eq_of_cover 8 (layerOf V c) (fun t _ => block_written V c t) blocks_cover

end Cert.KernelIdeal.RegionValue.R2

namespace Cert.KernelIdeal.RegionValue

export R2 (region2_value)

end Cert.KernelIdeal.RegionValue

end
-- ==== Proof.KHost.lean ====
/-
  The kernel program's result buffer, read back through its three regions and the host operations between them, is the
  network `HostFn.net` of the fourteen arguments as launched.

  The last region leaves in the result buffer the second layer of its entry contents; those are the host's neighbour
  sums of the first layer's output, the factor column made before the first region, and the first layer's output
  itself, which the second region left; and so on back to the launch memory. No host operation and no region writes an
  argument, and a buffer a stretch of host operations does not write is read through it unchanged.

  The walk, boundary by boundary (W0 the launch memory, W1 … W6 the contents after each stretch of host operations and
  each region in turn):
  * W1: the arguments as launched; the projection's bias laid as one row; the edges' source and destination vectors;
    the factor column 1 / max(deg, 1).
  * W2: the first region's output array is the projection of the features (its statement read at W1's contents, a
    vector laid as one row read back column by column); every other buffer as at W1.
  * W3: the neighbour sums of the projection (rows fetched at the sources, summed at the destinations); the first
    layer's three vectors laid as rows; the rest as at W2.
  * W4: the second region's output array is the first layer; the factor column, which that region only reads, and every
    buffer that is none of its arrays as at W3.
  * W5: the neighbour sums of the first layer; the second layer's three vectors laid as rows; the rest as at W4.
  * W6: the third region's output array is the second layer over all of these, which is the network.
-/
import proofs.«180277_j29008209117550_1_alg».proof.Proof.Gen.KernelIdeal.Frame
import proofs.«180277_j29008209117550_1_alg».proof.Proof.KDefs
import proofs.«180277_j29008209117550_1_alg».proof.Proof.Region0
import proofs.«180277_j29008209117550_1_alg».proof.Proof.Region1
import proofs.«180277_j29008209117550_1_alg».proof.Proof.Region2
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A stretch of host operations leaves a buffer none of them writes as it was. -/
local macro "host_skip" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))
/-! ## Before the first region: the launch memory through the first stretch of host operations -/

theorem W1_arg0 (c : Dev nD) :
    W1 (F := Ideal) m ρ c (Proc.devRef .tc main_arg0) = m ((c : Thread nD τ).loc main_arg0) := by
  show StableHlo.after hostOps0 (W0 m ρ c) (Proc.devRef .tc main_arg0) = _
  refine Eq.trans ?_ (rfl : W0 (F := Ideal) m ρ c (Proc.devRef .tc main_arg0) = _)
  host_skip hostOps0

theorem W1_arg2 (c : Dev nD) :
    W1 (F := Ideal) m ρ c (Proc.devRef .tc main_arg2) = m ((c : Thread nD τ).loc main_arg2) := by
  show StableHlo.after hostOps0 (W0 m ρ c) (Proc.devRef .tc main_arg2) = _
  refine Eq.trans ?_ (rfl : W0 (F := Ideal) m ρ c (Proc.devRef .tc main_arg2) = _)
  host_skip hostOps0

theorem W1_arg4 (c : Dev nD) :
    W1 (F := Ideal) m ρ c (Proc.devRef .tc main_arg4) = m ((c : Thread nD τ).loc main_arg4) := by
  show StableHlo.after hostOps0 (W0 m ρ c) (Proc.devRef .tc main_arg4) = _
  refine Eq.trans ?_ (rfl : W0 (F := Ideal) m ρ c (Proc.devRef .tc main_arg4) = _)
  host_skip hostOps0

theorem W1_arg5 (c : Dev nD) :
    W1 (F := Ideal) m ρ c (Proc.devRef .tc main_arg5) = m ((c : Thread nD τ).loc main_arg5) := by
  show StableHlo.after hostOps0 (W0 m ρ c) (Proc.devRef .tc main_arg5) = _
  refine Eq.trans ?_ (rfl : W0 (F := Ideal) m ρ c (Proc.devRef .tc main_arg5) = _)
  host_skip hostOps0

theorem W1_arg6 (c : Dev nD) :
    W1 (F := Ideal) m ρ c (Proc.devRef .tc main_arg6) = m ((c : Thread nD τ).loc main_arg6) := by
  show StableHlo.after hostOps0 (W0 m ρ c) (Proc.devRef .tc main_arg6) = _
  refine Eq.trans ?_ (rfl : W0 (F := Ideal) m ρ c (Proc.devRef .tc main_arg6) = _)
  host_skip hostOps0

theorem W1_arg7 (c : Dev nD) :
    W1 (F := Ideal) m ρ c (Proc.devRef .tc main_arg7) = m ((c : Thread nD τ).loc main_arg7) := by
  show StableHlo.after hostOps0 (W0 m ρ c) (Proc.devRef .tc main_arg7) = _
  refine Eq.trans ?_ (rfl : W0 (F := Ideal) m ρ c (Proc.devRef .tc main_arg7) = _)
  host_skip hostOps0

theorem W1_arg8 (c : Dev nD) :
    W1 (F := Ideal) m ρ c (Proc.devRef .tc main_arg8) = m ((c : Thread nD τ).loc main_arg8) := by
  show StableHlo.after hostOps0 (W0 m ρ c) (Proc.devRef .tc main_arg8) = _
  refine Eq.trans ?_ (rfl : W0 (F := Ideal) m ρ c (Proc.devRef .tc main_arg8) = _)
  host_skip hostOps0

theorem W1_arg9 (c : Dev nD) :
    W1 (F := Ideal) m ρ c (Proc.devRef .tc main_arg9) = m ((c : Thread nD τ).loc main_arg9) := by
  show StableHlo.after hostOps0 (W0 m ρ c) (Proc.devRef .tc main_arg9) = _
  refine Eq.trans ?_ (rfl : W0 (F := Ideal) m ρ c (Proc.devRef .tc main_arg9) = _)
  host_skip hostOps0

theorem W1_arg10 (c : Dev nD) :
    W1 (F := Ideal) m ρ c (Proc.devRef .tc main_arg10) = m ((c : Thread nD τ).loc main_arg10) := by
  show StableHlo.after hostOps0 (W0 m ρ c) (Proc.devRef .tc main_arg10) = _
  refine Eq.trans ?_ (rfl : W0 (F := Ideal) m ρ c (Proc.devRef .tc main_arg10) = _)
  host_skip hostOps0

theorem W1_arg11 (c : Dev nD) :
    W1 (F := Ideal) m ρ c (Proc.devRef .tc main_arg11) = m ((c : Thread nD τ).loc main_arg11) := by
  show StableHlo.after hostOps0 (W0 m ρ c) (Proc.devRef .tc main_arg11) = _
  refine Eq.trans ?_ (rfl : W0 (F := Ideal) m ρ c (Proc.devRef .tc main_arg11) = _)
  host_skip hostOps0

theorem W1_arg12 (c : Dev nD) :
    W1 (F := Ideal) m ρ c (Proc.devRef .tc main_arg12) = m ((c : Thread nD τ).loc main_arg12) := by
  show StableHlo.after hostOps0 (W0 m ρ c) (Proc.devRef .tc main_arg12) = _
  refine Eq.trans ?_ (rfl : W0 (F := Ideal) m ρ c (Proc.devRef .tc main_arg12) = _)
  host_skip hostOps0

theorem W1_arg13 (c : Dev nD) :
    W1 (F := Ideal) m ρ c (Proc.devRef .tc main_arg13) = m ((c : Thread nD τ).loc main_arg13) := by
  show StableHlo.after hostOps0 (W0 m ρ c) (Proc.devRef .tc main_arg13) = _
  refine Eq.trans ?_ (rfl : W0 (F := Ideal) m ρ c (Proc.devRef .tc main_arg13) = _)
  host_skip hostOps0

/-- The projection's bias, laid as one row. -/
theorem W1_v13 (c : Dev nD) :
    (W1 (F := Ideal) m ρ c (Proc.devRef .tc main_v13) : S1x64.Idx → EReal)
      = shapeCast S1x64 (m ((c : Thread nD τ).loc main_arg3)) shapeCasts_S64_S1x64 := by
  show StableHlo.after hostOps0 (W0 m ρ c) (Proc.devRef .tc main_v13) = _
  after_results
  rfl

/-- The factor column 1 / max(deg, 1). -/
theorem W1_v12 (c : Dev nD) :
    (W1 (F := Ideal) m ρ c (Proc.devRef .tc main_v12) : S50000x1.Idx → EReal) = HostFn.dinv (m ((c : Thread nD τ).loc main_arg1)) := by
  show StableHlo.after hostOps0 (W0 m ρ c) (Proc.devRef .tc main_v12) = _
  after_results
  rfl

/-- The edges' sources. -/
theorem W1_v1 (c : Dev nD) :
    (W1 (F := Ideal) m ρ c (Proc.devRef .tc main_v1) : S800000.Idx → Elt Ideal .i32) = HostFn.srcVec (m ((c : Thread nD τ).loc main_arg1)) := by
  show StableHlo.after hostOps0 (W0 m ρ c) (Proc.devRef .tc main_v1) = _
  after_results
  rfl

/-- The edges' destinations. -/
theorem W1_v3 (c : Dev nD) :
    (W1 (F := Ideal) m ρ c (Proc.devRef .tc main_v3) : S800000.Idx → Elt Ideal .i32) = HostFn.dstVec (m ((c : Thread nD τ).loc main_arg1)) := by
  show StableHlo.after hostOps0 (W0 m ρ c) (Proc.devRef .tc main_v3) = _
  after_results
  rfl

theorem V1_arg0 (c : Dev nD) : V1 (F := Ideal) m ρ c main_arg0 = m ((c : Thread nD τ).loc main_arg0) := W1_arg0 m ρ c
theorem V1_arg2 (c : Dev nD) : V1 (F := Ideal) m ρ c main_arg2 = m ((c : Thread nD τ).loc main_arg2) := W1_arg2 m ρ c
theorem V1_v13 (c : Dev nD) :
    (V1 (F := Ideal) m ρ c main_v13 : S1x64.Idx → EReal) = shapeCast S1x64 (m ((c : Thread nD τ).loc main_arg3)) shapeCasts_S64_S1x64 := W1_v13 m ρ c

/-! ## After the first region: its output is the projection; every other buffer is as it entered -/

theorem W2_arg4 (c : Dev nD) :
    W2 (F := Ideal) m ρ c (Proc.devRef .tc main_arg4) = m ((c : Thread nD τ).loc main_arg4) :=
  (W2_of_ne m ρ c main_arg4 (by decide)).trans (W1_arg4 m ρ c)

theorem W2_arg5 (c : Dev nD) :
    W2 (F := Ideal) m ρ c (Proc.devRef .tc main_arg5) = m ((c : Thread nD τ).loc main_arg5) :=
  (W2_of_ne m ρ c main_arg5 (by decide)).trans (W1_arg5 m ρ c)

theorem W2_arg6 (c : Dev nD) :
    W2 (F := Ideal) m ρ c (Proc.devRef .tc main_arg6) = m ((c : Thread nD τ).loc main_arg6) :=
  (W2_of_ne m ρ c main_arg6 (by decide)).trans (W1_arg6 m ρ c)

theorem W2_arg7 (c : Dev nD) :
    W2 (F := Ideal) m ρ c (Proc.devRef .tc main_arg7) = m ((c : Thread nD τ).loc main_arg7) :=
  (W2_of_ne m ρ c main_arg7 (by decide)).trans (W1_arg7 m ρ c)

theorem W2_arg8 (c : Dev nD) :
    W2 (F := Ideal) m ρ c (Proc.devRef .tc main_arg8) = m ((c : Thread nD τ).loc main_arg8) :=
  (W2_of_ne m ρ c main_arg8 (by decide)).trans (W1_arg8 m ρ c)

theorem W2_arg9 (c : Dev nD) :
    W2 (F := Ideal) m ρ c (Proc.devRef .tc main_arg9) = m ((c : Thread nD τ).loc main_arg9) :=
  (W2_of_ne m ρ c main_arg9 (by decide)).trans (W1_arg9 m ρ c)

theorem W2_arg10 (c : Dev nD) :
    W2 (F := Ideal) m ρ c (Proc.devRef .tc main_arg10) = m ((c : Thread nD τ).loc main_arg10) :=
  (W2_of_ne m ρ c main_arg10 (by decide)).trans (W1_arg10 m ρ c)

theorem W2_arg11 (c : Dev nD) :
    W2 (F := Ideal) m ρ c (Proc.devRef .tc main_arg11) = m ((c : Thread nD τ).loc main_arg11) :=
  (W2_of_ne m ρ c main_arg11 (by decide)).trans (W1_arg11 m ρ c)

theorem W2_arg12 (c : Dev nD) :
    W2 (F := Ideal) m ρ c (Proc.devRef .tc main_arg12) = m ((c : Thread nD τ).loc main_arg12) :=
  (W2_of_ne m ρ c main_arg12 (by decide)).trans (W1_arg12 m ρ c)

theorem W2_arg13 (c : Dev nD) :
    W2 (F := Ideal) m ρ c (Proc.devRef .tc main_arg13) = m ((c : Thread nD τ).loc main_arg13) :=
  (W2_of_ne m ρ c main_arg13 (by decide)).trans (W1_arg13 m ρ c)

theorem W2_v12 (c : Dev nD) :
    (W2 (F := Ideal) m ρ c (Proc.devRef .tc main_v12) : S50000x1.Idx → EReal) = HostFn.dinv (m ((c : Thread nD τ).loc main_arg1)) :=
  (W2_of_ne m ρ c main_v12 (by decide)).trans (W1_v12 m ρ c)

theorem W2_v1 (c : Dev nD) :
    (W2 (F := Ideal) m ρ c (Proc.devRef .tc main_v1) : S800000.Idx → Elt Ideal .i32) = HostFn.srcVec (m ((c : Thread nD τ).loc main_arg1)) :=
  (W2_of_ne m ρ c main_v1 (by decide)).trans (W1_v1 m ρ c)

theorem W2_v3 (c : Dev nD) :
    (W2 (F := Ideal) m ρ c (Proc.devRef .tc main_v3) : S800000.Idx → Elt Ideal .i32) = HostFn.dstVec (m ((c : Thread nD τ).loc main_arg1)) :=
  (W2_of_ne m ρ c main_v3 (by decide)).trans (W1_v3 m ρ c)

/-- The first region's output: the projection of the launched features. -/
theorem W2_v14 (c : Dev nD) :
    (W2 (F := Ideal) m ρ c (Proc.devRef .tc main_v14) : S50000x64.Idx → EReal) = (HostFn.h0 (m ((c : Thread nD τ).loc main_arg0)) (m ((c : Thread nD τ).loc main_arg2)) (m ((c : Thread nD τ).loc main_arg3))) := by
  refine ((W2_arr m ρ c 3).trans (RegionValue.region0_value (V1 m ρ) c)).trans ?_
  rw [V1_arg0 m ρ c, V1_arg2 m ρ c, V1_v13 m ρ c]
  simp only [LibGraphConv.shapeCast_row_apply]
  rfl

/-! ## Before the second region: the second stretch gathers the projection's rows at the sources and sums them at the
    destinations, and lays the first layer's three vectors as rows -/

theorem W3_arg4 (c : Dev nD) :
    W3 (F := Ideal) m ρ c (Proc.devRef .tc main_arg4) = m ((c : Thread nD τ).loc main_arg4) := by
  show StableHlo.after hostOps1 (W2 m ρ c) (Proc.devRef .tc main_arg4) = _
  refine Eq.trans ?_ (W2_arg4 m ρ c)
  host_skip hostOps1

theorem W3_arg6 (c : Dev nD) :
    W3 (F := Ideal) m ρ c (Proc.devRef .tc main_arg6) = m ((c : Thread nD τ).loc main_arg6) := by
  show StableHlo.after hostOps1 (W2 m ρ c) (Proc.devRef .tc main_arg6) = _
  refine Eq.trans ?_ (W2_arg6 m ρ c)
  host_skip hostOps1

theorem W3_arg9 (c : Dev nD) :
    W3 (F := Ideal) m ρ c (Proc.devRef .tc main_arg9) = m ((c : Thread nD τ).loc main_arg9) := by
  show StableHlo.after hostOps1 (W2 m ρ c) (Proc.devRef .tc main_arg9) = _
  refine Eq.trans ?_ (W2_arg9 m ρ c)
  host_skip hostOps1

theorem W3_arg10 (c : Dev nD) :
    W3 (F := Ideal) m ρ c (Proc.devRef .tc main_arg10) = m ((c : Thread nD τ).loc main_arg10) := by
  show StableHlo.after hostOps1 (W2 m ρ c) (Proc.devRef .tc main_arg10) = _
  refine Eq.trans ?_ (W2_arg10 m ρ c)
  host_skip hostOps1

theorem W3_arg11 (c : Dev nD) :
    W3 (F := Ideal) m ρ c (Proc.devRef .tc main_arg11) = m ((c : Thread nD τ).loc main_arg11) := by
  show StableHlo.after hostOps1 (W2 m ρ c) (Proc.devRef .tc main_arg11) = _
  refine Eq.trans ?_ (W2_arg11 m ρ c)
  host_skip hostOps1

theorem W3_arg12 (c : Dev nD) :
    W3 (F := Ideal) m ρ c (Proc.devRef .tc main_arg12) = m ((c : Thread nD τ).loc main_arg12) := by
  show StableHlo.after hostOps1 (W2 m ρ c) (Proc.devRef .tc main_arg12) = _
  refine Eq.trans ?_ (W2_arg12 m ρ c)
  host_skip hostOps1

theorem W3_arg13 (c : Dev nD) :
    W3 (F := Ideal) m ρ c (Proc.devRef .tc main_arg13) = m ((c : Thread nD τ).loc main_arg13) := by
  show StableHlo.after hostOps1 (W2 m ρ c) (Proc.devRef .tc main_arg13) = _
  refine Eq.trans ?_ (W2_arg13 m ρ c)
  host_skip hostOps1

theorem W3_v12 (c : Dev nD) :
    (W3 (F := Ideal) m ρ c (Proc.devRef .tc main_v12) : S50000x1.Idx → EReal) = HostFn.dinv (m ((c : Thread nD τ).loc main_arg1)) := by
  show StableHlo.after hostOps1 (W2 m ρ c) (Proc.devRef .tc main_v12) = _
  refine Eq.trans ?_ (W2_v12 m ρ c)
  host_skip hostOps1

theorem W3_v1 (c : Dev nD) :
    (W3 (F := Ideal) m ρ c (Proc.devRef .tc main_v1) : S800000.Idx → Elt Ideal .i32) = HostFn.srcVec (m ((c : Thread nD τ).loc main_arg1)) := by
  show StableHlo.after hostOps1 (W2 m ρ c) (Proc.devRef .tc main_v1) = _
  refine Eq.trans ?_ (W2_v1 m ρ c)
  host_skip hostOps1

theorem W3_v3 (c : Dev nD) :
    (W3 (F := Ideal) m ρ c (Proc.devRef .tc main_v3) : S800000.Idx → Elt Ideal .i32) = HostFn.dstVec (m ((c : Thread nD τ).loc main_arg1)) := by
  show StableHlo.after hostOps1 (W2 m ρ c) (Proc.devRef .tc main_v3) = _
  refine Eq.trans ?_ (W2_v3 m ρ c)
  host_skip hostOps1

theorem W3_v14 (c : Dev nD) :
    (W3 (F := Ideal) m ρ c (Proc.devRef .tc main_v14) : S50000x64.Idx → EReal) = (HostFn.h0 (m ((c : Thread nD τ).loc main_arg0)) (m ((c : Thread nD τ).loc main_arg2)) (m ((c : Thread nD τ).loc main_arg3))) := by
  show StableHlo.after hostOps1 (W2 m ρ c) (Proc.devRef .tc main_v14) = _
  refine Eq.trans ?_ (W2_v14 m ρ c)
  host_skip hostOps1

theorem W3_v25 (c : Dev nD) :
    (W3 (F := Ideal) m ρ c (Proc.devRef .tc main_v25) : S1x64.Idx → EReal)
      = shapeCast S1x64 (m ((c : Thread nD τ).loc main_arg5)) shapeCasts_S64_S1x64 := by
  show StableHlo.after hostOps1 (W2 m ρ c) (Proc.devRef .tc main_v25) = _
  after_results
  rw [W2_arg5 m ρ c]
  rfl

theorem W3_v26 (c : Dev nD) :
    (W3 (F := Ideal) m ρ c (Proc.devRef .tc main_v26) : S1x64.Idx → EReal)
      = shapeCast S1x64 (m ((c : Thread nD τ).loc main_arg7)) shapeCasts_S64_S1x64 := by
  show StableHlo.after hostOps1 (W2 m ρ c) (Proc.devRef .tc main_v26) = _
  after_results
  rw [W2_arg7 m ρ c]
  rfl

theorem W3_v27 (c : Dev nD) :
    (W3 (F := Ideal) m ρ c (Proc.devRef .tc main_v27) : S1x64.Idx → EReal)
      = shapeCast S1x64 (m ((c : Thread nD τ).loc main_arg8)) shapeCasts_S64_S1x64 := by
  show StableHlo.after hostOps1 (W2 m ρ c) (Proc.devRef .tc main_v27) = _
  after_results
  rw [W2_arg8 m ρ c]
  rfl

/-- The neighbour sums of the projection. -/
theorem W3_v24 (c : Dev nD) :
    (W3 (F := Ideal) m ρ c (Proc.devRef .tc main_v24) : S50000x64.Idx → EReal) = HostFn.agg (m ((c : Thread nD τ).loc main_arg1)) (HostFn.h0 (m ((c : Thread nD τ).loc main_arg0)) (m ((c : Thread nD τ).loc main_arg2)) (m ((c : Thread nD τ).loc main_arg3))) := by
  show StableHlo.after hostOps1 (W2 m ρ c) (Proc.devRef .tc main_v24) = _
  after_results_simp
  rw [W2_v3 m ρ c, W2_v14 m ρ c, W2_v1 m ρ c]
  rfl

theorem V3_v24 (c : Dev nD) :
    (V3 (F := Ideal) m ρ c main_v24 : S50000x64.Idx → EReal) = HostFn.agg (m ((c : Thread nD τ).loc main_arg1)) (HostFn.h0 (m ((c : Thread nD τ).loc main_arg0)) (m ((c : Thread nD τ).loc main_arg2)) (m ((c : Thread nD τ).loc main_arg3))) := W3_v24 m ρ c
theorem V3_v12 (c : Dev nD) :
    (V3 (F := Ideal) m ρ c main_v12 : S50000x1.Idx → EReal) = HostFn.dinv (m ((c : Thread nD τ).loc main_arg1)) := W3_v12 m ρ c
theorem V3_v14 (c : Dev nD) :
    (V3 (F := Ideal) m ρ c main_v14 : S50000x64.Idx → EReal) = (HostFn.h0 (m ((c : Thread nD τ).loc main_arg0)) (m ((c : Thread nD τ).loc main_arg2)) (m ((c : Thread nD τ).loc main_arg3))) := W3_v14 m ρ c
theorem V3_arg4 (c : Dev nD) : V3 (F := Ideal) m ρ c main_arg4 = m ((c : Thread nD τ).loc main_arg4) := W3_arg4 m ρ c
theorem V3_arg6 (c : Dev nD) : V3 (F := Ideal) m ρ c main_arg6 = m ((c : Thread nD τ).loc main_arg6) := W3_arg6 m ρ c
theorem V3_v25 (c : Dev nD) :
    (V3 (F := Ideal) m ρ c main_v25 : S1x64.Idx → EReal) = shapeCast S1x64 (m ((c : Thread nD τ).loc main_arg5)) shapeCasts_S64_S1x64 := W3_v25 m ρ c
theorem V3_v26 (c : Dev nD) :
    (V3 (F := Ideal) m ρ c main_v26 : S1x64.Idx → EReal) = shapeCast S1x64 (m ((c : Thread nD τ).loc main_arg7)) shapeCasts_S64_S1x64 := W3_v26 m ρ c
theorem V3_v27 (c : Dev nD) :
    (V3 (F := Ideal) m ρ c main_v27 : S1x64.Idx → EReal) = shapeCast S1x64 (m ((c : Thread nD τ).loc main_arg8)) shapeCasts_S64_S1x64 := W3_v27 m ρ c

/-! ## After the second region: its output is the first layer; the factor column, which it only reads, and every buffer
    that is none of its arrays are as they entered -/

theorem W4_arg9 (c : Dev nD) :
    W4 (F := Ideal) m ρ c (Proc.devRef .tc main_arg9) = m ((c : Thread nD τ).loc main_arg9) :=
  (W4_of_ne m ρ c main_arg9 (by decide)).trans (W3_arg9 m ρ c)

theorem W4_arg10 (c : Dev nD) :
    W4 (F := Ideal) m ρ c (Proc.devRef .tc main_arg10) = m ((c : Thread nD τ).loc main_arg10) :=
  (W4_of_ne m ρ c main_arg10 (by decide)).trans (W3_arg10 m ρ c)

theorem W4_arg11 (c : Dev nD) :
    W4 (F := Ideal) m ρ c (Proc.devRef .tc main_arg11) = m ((c : Thread nD τ).loc main_arg11) :=
  (W4_of_ne m ρ c main_arg11 (by decide)).trans (W3_arg11 m ρ c)

theorem W4_arg12 (c : Dev nD) :
    W4 (F := Ideal) m ρ c (Proc.devRef .tc main_arg12) = m ((c : Thread nD τ).loc main_arg12) :=
  (W4_of_ne m ρ c main_arg12 (by decide)).trans (W3_arg12 m ρ c)

theorem W4_arg13 (c : Dev nD) :
    W4 (F := Ideal) m ρ c (Proc.devRef .tc main_arg13) = m ((c : Thread nD τ).loc main_arg13) :=
  (W4_of_ne m ρ c main_arg13 (by decide)).trans (W3_arg13 m ρ c)

theorem W4_v1 (c : Dev nD) :
    (W4 (F := Ideal) m ρ c (Proc.devRef .tc main_v1) : S800000.Idx → Elt Ideal .i32) = HostFn.srcVec (m ((c : Thread nD τ).loc main_arg1)) :=
  (W4_of_ne m ρ c main_v1 (by decide)).trans (W3_v1 m ρ c)

theorem W4_v3 (c : Dev nD) :
    (W4 (F := Ideal) m ρ c (Proc.devRef .tc main_v3) : S800000.Idx → Elt Ideal .i32) = HostFn.dstVec (m ((c : Thread nD τ).loc main_arg1)) :=
  (W4_of_ne m ρ c main_v3 (by decide)).trans (W3_v3 m ρ c)

/-- The factor column is an input window of the second region: at the exit it is what it was at the entry. -/
theorem W4_v12 (c : Dev nD) :
    (W4 (F := Ideal) m ρ c (Proc.devRef .tc main_v12) : S50000x1.Idx → EReal) = HostFn.dinv (m ((c : Thread nD τ).loc main_arg1)) :=
  (W4_arr m ρ c 1).trans ((((dat1 (V3 m ρ) c).arrAt_in 1 rfl _).trans (A_eq1 (V3 m ρ) c 1)).trans (W3_v12 m ρ c))

/-- The second region's output: the first layer over the projection. -/
theorem W4_v28 (c : Dev nD) :
    (W4 (F := Ideal) m ρ c (Proc.devRef .tc main_v28) : S50000x64.Idx → EReal) = (HostFn.h1 (m ((c : Thread nD τ).loc main_arg1)) (HostFn.h0 (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) := by
  refine ((W4_arr m ρ c 8).trans (RegionValue.region1_value (V3 m ρ) c)).trans ?_
  rw [V3_v24 m ρ c, V3_v12 m ρ c, V3_v14 m ρ c, V3_arg4 m ρ c, V3_arg6 m ρ c, V3_v25 m ρ c, V3_v26 m ρ c, V3_v27 m ρ c]
  simp only [LibGraphConv.shapeCast_row_apply]
  rfl

/-! ## Before the third region: the third stretch sums the first layer's rows over the edges and lays the second layer's
    three vectors as rows -/

theorem W5_arg9 (c : Dev nD) :
    W5 (F := Ideal) m ρ c (Proc.devRef .tc main_arg9) = m ((c : Thread nD τ).loc main_arg9) := by
  show StableHlo.after hostOps2 (W4 m ρ c) (Proc.devRef .tc main_arg9) = _
  refine Eq.trans ?_ (W4_arg9 m ρ c)
  host_skip hostOps2

theorem W5_arg11 (c : Dev nD) :
    W5 (F := Ideal) m ρ c (Proc.devRef .tc main_arg11) = m ((c : Thread nD τ).loc main_arg11) := by
  show StableHlo.after hostOps2 (W4 m ρ c) (Proc.devRef .tc main_arg11) = _
  refine Eq.trans ?_ (W4_arg11 m ρ c)
  host_skip hostOps2

theorem W5_v12 (c : Dev nD) :
    (W5 (F := Ideal) m ρ c (Proc.devRef .tc main_v12) : S50000x1.Idx → EReal) = HostFn.dinv (m ((c : Thread nD τ).loc main_arg1)) := by
  show StableHlo.after hostOps2 (W4 m ρ c) (Proc.devRef .tc main_v12) = _
  refine Eq.trans ?_ (W4_v12 m ρ c)
  host_skip hostOps2

theorem W5_v28 (c : Dev nD) :
    (W5 (F := Ideal) m ρ c (Proc.devRef .tc main_v28) : S50000x64.Idx → EReal) = (HostFn.h1 (m ((c : Thread nD τ).loc main_arg1)) (HostFn.h0 (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v28) = _
  refine Eq.trans ?_ (W4_v28 m ρ c)
  host_skip hostOps2

theorem W5_v39 (c : Dev nD) :
    (W5 (F := Ideal) m ρ c (Proc.devRef .tc main_v39) : S1x128.Idx → EReal)
      = shapeCast S1x128 (m ((c : Thread nD τ).loc main_arg10)) shapeCasts_S128_S1x128 := by
  show StableHlo.after hostOps2 (W4 m ρ c) (Proc.devRef .tc main_v39) = _
  after_results
  rw [W4_arg10 m ρ c]
  rfl

theorem W5_v40 (c : Dev nD) :
    (W5 (F := Ideal) m ρ c (Proc.devRef .tc main_v40) : S1x128.Idx → EReal)
      = shapeCast S1x128 (m ((c : Thread nD τ).loc main_arg12)) shapeCasts_S128_S1x128 := by
  show StableHlo.after hostOps2 (W4 m ρ c) (Proc.devRef .tc main_v40) = _
  after_results
  rw [W4_arg12 m ρ c]
  rfl

theorem W5_v41 (c : Dev nD) :
    (W5 (F := Ideal) m ρ c (Proc.devRef .tc main_v41) : S1x128.Idx → EReal)
      = shapeCast S1x128 (m ((c : Thread nD τ).loc main_arg13)) shapeCasts_S128_S1x128 := by
  show StableHlo.after hostOps2 (W4 m ρ c) (Proc.devRef .tc main_v41) = _
  after_results
  rw [W4_arg13 m ρ c]
  rfl

/-- The neighbour sums of the first layer. -/
theorem W5_v38 (c : Dev nD) :
    (W5 (F := Ideal) m ρ c (Proc.devRef .tc main_v38) : S50000x64.Idx → EReal) = HostFn.agg (m ((c : Thread nD τ).loc main_arg1)) (HostFn.h1 (m ((c : Thread nD τ).loc main_arg1)) (HostFn.h0 (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v38) = _
  after_results_simp
  rw [W4_v3 m ρ c, W4_v28 m ρ c, W4_v1 m ρ c]
  rfl

theorem V5_v38 (c : Dev nD) :
    (V5 (F := Ideal) m ρ c main_v38 : S50000x64.Idx → EReal) = HostFn.agg (m ((c : Thread nD τ).loc main_arg1)) (HostFn.h1 (m ((c : Thread nD τ).loc main_arg1)) (HostFn.h0 (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) := W5_v38 m ρ c
theorem V5_v12 (c : Dev nD) :
    (V5 (F := Ideal) m ρ c main_v12 : S50000x1.Idx → EReal) = HostFn.dinv (m ((c : Thread nD τ).loc main_arg1)) := W5_v12 m ρ c
theorem V5_v28 (c : Dev nD) :
    (V5 (F := Ideal) m ρ c main_v28 : S50000x64.Idx → EReal) = (HostFn.h1 (m ((c : Thread nD τ).loc main_arg1)) (HostFn.h0 (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) := W5_v28 m ρ c
theorem V5_arg9 (c : Dev nD) : V5 (F := Ideal) m ρ c main_arg9 = m ((c : Thread nD τ).loc main_arg9) := W5_arg9 m ρ c
theorem V5_arg11 (c : Dev nD) : V5 (F := Ideal) m ρ c main_arg11 = m ((c : Thread nD τ).loc main_arg11) := W5_arg11 m ρ c
theorem V5_v39 (c : Dev nD) :
    (V5 (F := Ideal) m ρ c main_v39 : S1x128.Idx → EReal) = shapeCast S1x128 (m ((c : Thread nD τ).loc main_arg10)) shapeCasts_S128_S1x128 := W5_v39 m ρ c
theorem V5_v40 (c : Dev nD) :
    (V5 (F := Ideal) m ρ c main_v40 : S1x128.Idx → EReal) = shapeCast S1x128 (m ((c : Thread nD τ).loc main_arg12)) shapeCasts_S128_S1x128 := W5_v40 m ρ c
theorem V5_v41 (c : Dev nD) :
    (V5 (F := Ideal) m ρ c main_v41 : S1x128.Idx → EReal) = shapeCast S1x128 (m ((c : Thread nD τ).loc main_arg13)) shapeCasts_S128_S1x128 := W5_v41 m ρ c

/-! ## The result -/

/-- The result buffer at the last boundary is the network of the arguments. -/
theorem kernel_value (c : Dev nD) :
    (W6 (F := Ideal) m ρ c (Proc.devRef .tc main_v42) : S50000x128.Idx → EReal)
      = HostFn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W6_arr m ρ c 8).trans (RegionValue.region2_value (V5 m ρ) c)).trans ?_
  rw [V5_v38 m ρ c, V5_v12 m ρ c, V5_v28 m ρ c, V5_arg9 m ρ c, V5_arg11 m ρ c, V5_v39 m ρ c, V5_v40 m ρ c, V5_v41 m ρ c]
  simp only [LibGraphConv.shapeCast_row_apply]
  rfl

end Cert.KernelIdeal.HostValue

end
-- ==== Proof.RefValue.lean ====
/-
  The reference's dense stages are the specification's: its projection stage is `proj`, and each of its two
  layer stages — the two products, the bias, the row mean and variance by host sums divided by the row's width, the
  reciprocal root, scale, shift and rectifier — is `layer` of the stage's neighbour means and of the previous stage.
-/
import proofs.«180277_j29008209117550_1_alg».proof.Proof.Gen.ReferenceIdeal.Run
import proofs.«180277_j29008209117550_1_alg».proof.Proof.Gen.ReferenceIdeal.Read
import proofs.«180277_j29008209117550_1_alg».proof.Proof.Spec

noncomputable section

namespace Cert.ReferenceIdeal.RefValue

open Cert.ReferenceIdeal Cert.ReferenceIdeal.Read Idealize.ShloMosaic Idealize.ShloMosaic.ValueIdx

/-! ## The projection -/

theorem ref_h0 (x0 : (⟨S50000x6, .f32⟩ : BufTy).Contents (Elt Ideal)) (x2 : (⟨S6x64, .f32⟩ : BufTy).Contents (Elt Ideal)) (x3 : (⟨S64, .f32⟩ : BufTy).Contents (Elt Ideal)) :
    val_main_v8 (F := Ideal) x0 x2 x3
      = Cert.Gnn.proj (N := 50000) (K := 6) (H := 64) x0 x2 (fun q => x3 (ix1 q)) := by
  funext i
  obtain ⟨p, q, rfl⟩ : ∃ (p : Fin 50000) (q : Fin 64), i = ix2 p q := ⟨i 0, i 1, eq_ix2 i⟩
  rw [Cert.Gnn.proj_apply, val_main_v8_apply, val_main_v7_apply, val_main_v4_apply, val_main_v6_apply, val_main_v5_apply,
    val_main_call0_v0_apply, val_main_call0_cst_apply]
  have el : ∀ k : Fin 6, lidx_main_v4 (ix2 p q) k = ix2 p k := fun k =>
    funext fun a => Fin.ext (by match a with | ⟨0, _⟩ => rfl | ⟨1, _⟩ => rfl)
  have er : ∀ k : Fin 6, ridx_main_v4 (ix2 p q) k = ix2 k q := fun k =>
    funext fun a => Fin.ext (by match a with | ⟨0, _⟩ => rfl | ⟨1, _⟩ => rfl)
  have eb : idx_main_v5 (idx_main_v6 (ix2 p q)) = ix1 q :=
    funext fun a => Fin.ext (by match a with | ⟨0, _⟩ => rfl)
  simp only [el, er, eb, Ideal.maximumf_def, Ideal.addf_def, Ideal.ofBits_def, Ideal.ofBits_zero_f32]

/-! ## The first layer -/

/-- The first layer's sum of the two products and the bias, at row p and column j, is the specification's row before
    its normalisation. -/
theorem v32_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (p : Fin 50000) (j : Fin 64) :
    val_main_v32 (F := Ideal) x0 x1 x2 x3 x4 x5 x6 (ix2 p j)
      = Cert.Gnn.pre (val_main_v26 (F := Ideal) x0 x1 x2 x3) (val_main_v8 (F := Ideal) x0 x2 x3) x4 x6 (fun q => x5 (ix1 q)) p j := by
  unfold Cert.Gnn.pre
  rw [val_main_v32_apply, val_main_v30_apply, val_main_v27_apply, val_main_v29_apply, val_main_v28_apply, val_main_v31_apply]
  generalize val_main_v26 (F := Ideal) x0 x1 x2 x3 = mean
  generalize val_main_v8 (F := Ideal) x0 x2 x3 = h
  have e1 : ∀ k : Fin 64, lidx_main_v27 (ix2 p j) k = ix2 p k := fun k => funext fun a => Fin.ext (by match a with | ⟨0, _⟩ => rfl | ⟨1, _⟩ => rfl)
  have e2 : ∀ k : Fin 64, ridx_main_v27 (ix2 p j) k = ix2 k j := fun k => funext fun a => Fin.ext (by match a with | ⟨0, _⟩ => rfl | ⟨1, _⟩ => rfl)
  have e3 : ∀ k : Fin 64, lidx_main_v31 (ix2 p j) k = ix2 p k := fun k => funext fun a => Fin.ext (by match a with | ⟨0, _⟩ => rfl | ⟨1, _⟩ => rfl)
  have e4 : ∀ k : Fin 64, ridx_main_v31 (ix2 p j) k = ix2 k j := fun k => funext fun a => Fin.ext (by match a with | ⟨0, _⟩ => rfl | ⟨1, _⟩ => rfl)
  have eb : idx_main_v28 (idx_main_v29 (ix2 p j)) = ix1 j := funext fun a => Fin.ext (by match a with | ⟨0, _⟩ => rfl)
  simp only [e1, e2, e3, e4, eb, Ideal.addf_def]

/-- The first layer's mean column, at row p, is the row's sum divided by the width's word. -/
theorem v36_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (p : Fin 50000) (z : Fin 1) :
    val_main_v36 (F := Ideal) x0 x1 x2 x3 x4 x5 x6 (ix2 p z)
      = Ideal.div (∑ j : Fin 64, val_main_v32 (F := Ideal) x0 x1 x2 x3 x4 x5 x6 (ix2 p j)) (Ideal.ofBits .f32 0x42800000#32) := by
  rw [val_main_v36_apply, val_main_v34_apply, val_main_v33_apply, val_main_cst_4_apply, val_main_v35_apply, val_main_cst_5_apply]
  generalize val_main_v32 (F := Ideal) x0 x1 x2 x3 x4 x5 x6 = y
  have e : ∀ k : Fin 64, idx_main_v33 (idx_main_v34 (ix2 p z)) k = ix2 p k := fun k => funext fun a => Fin.ext (by match a with | ⟨0, _⟩ => rfl | ⟨1, _⟩ => rfl)
  simp only [e, Ideal.hostDivf_def, Ideal.ofBits_def, Ideal.ofBits_zero_f32, zero_add]

/-- The first layer's centred stage, at row p and column j, is the entry less the row's mean. -/
theorem v38_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (p : Fin 50000) (j : Fin 64) :
    val_main_v38 (F := Ideal) x0 x1 x2 x3 x4 x5 x6 (ix2 p j)
      = val_main_v32 (F := Ideal) x0 x1 x2 x3 x4 x5 x6 (ix2 p j)
        - Ideal.div (∑ j' : Fin 64, val_main_v32 (F := Ideal) x0 x1 x2 x3 x4 x5 x6 (ix2 p j')) (Ideal.ofBits .f32 0x42800000#32) := by
  rw [val_main_v38_apply, val_main_v37_apply]
  have e : idx_main_v37 (ix2 p j) = ix2 p (0 : Fin 1) := funext fun a => Fin.ext (by match a with | ⟨0, _⟩ => rfl | ⟨1, _⟩ => rfl)
  rw [e, v36_at, Ideal.subf_def]

/-- The first layer's variance column, at row p, is the sum of the squared centred entries divided by the width's word. -/
theorem v43_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (p : Fin 50000) (z : Fin 1) :
    val_main_v43 (F := Ideal) x0 x1 x2 x3 x4 x5 x6 (ix2 p z)
      = Ideal.div (∑ j : Fin 64,
          (val_main_v32 (F := Ideal) x0 x1 x2 x3 x4 x5 x6 (ix2 p j)
            - Ideal.div (∑ j' : Fin 64, val_main_v32 (F := Ideal) x0 x1 x2 x3 x4 x5 x6 (ix2 p j')) (Ideal.ofBits .f32 0x42800000#32))
          * (val_main_v32 (F := Ideal) x0 x1 x2 x3 x4 x5 x6 (ix2 p j)
            - Ideal.div (∑ j' : Fin 64, val_main_v32 (F := Ideal) x0 x1 x2 x3 x4 x5 x6 (ix2 p j')) (Ideal.ofBits .f32 0x42800000#32)))
        (Ideal.ofBits .f32 0x42800000#32) := by
  rw [val_main_v43_apply, val_main_v41_apply, val_main_v40_apply, val_main_cst_6_apply, val_main_v42_apply, val_main_cst_7_apply,
    Ideal.hostDivf_def, Ideal.ofBits_def, Ideal.ofBits_def, Ideal.ofBits_zero_f32, zero_add]
  refine congrArg (fun s => Ideal.div s (Ideal.ofBits .f32 0x42800000#32)) (Finset.sum_congr rfl fun k _ => ?_)
  have e : idx_main_v40 (idx_main_v41 (ix2 p z)) k = ix2 p k := funext fun a => Fin.ext (by match a with | ⟨0, _⟩ => rfl | ⟨1, _⟩ => rfl)
  rw [e, val_main_v39_apply, v38_at, Ideal.mulf_def]

/-- The first layer's second centred stage reads like the first. -/
theorem v45_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (p : Fin 50000) (j : Fin 64) :
    val_main_v45 (F := Ideal) x0 x1 x2 x3 x4 x5 x6 (ix2 p j)
      = val_main_v32 (F := Ideal) x0 x1 x2 x3 x4 x5 x6 (ix2 p j)
        - Ideal.div (∑ j' : Fin 64, val_main_v32 (F := Ideal) x0 x1 x2 x3 x4 x5 x6 (ix2 p j')) (Ideal.ofBits .f32 0x42800000#32) := by
  rw [val_main_v45_apply, val_main_v44_apply]
  have e : idx_main_v44 (ix2 p j) = ix2 p (0 : Fin 1) := funext fun a => Fin.ext (by match a with | ⟨0, _⟩ => rfl | ⟨1, _⟩ => rfl)
  rw [e, v36_at, Ideal.subf_def]

theorem ref_h1 (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal)) :
    val_main_v57 (F := Ideal) x0 x1 x2 x3 x4 x5 x6 x7 x8
      = Cert.Gnn.layer (N := 50000) (K := 64) (H := 64) (Ideal.ofBits .f32 0x42800000#32)
          (val_main_v26 (F := Ideal) x0 x1 x2 x3) (val_main_v8 (F := Ideal) x0 x2 x3) x4 x6
          (fun q => x5 (ix1 q)) (fun q => x7 (ix1 q)) (fun q => x8 (ix1 q)) := by
  funext i
  obtain ⟨p, q, rfl⟩ : ∃ (p : Fin 50000) (q : Fin 64), i = ix2 p q := ⟨i 0, i 1, eq_ix2 i⟩
  rw [Cert.Gnn.layer_apply]
  have hy : Cert.Gnn.pre (val_main_v26 (F := Ideal) x0 x1 x2 x3) (val_main_v8 (F := Ideal) x0 x2 x3) x4 x6 (fun q => x5 (ix1 q)) p
      = fun j => val_main_v32 (F := Ideal) x0 x1 x2 x3 x4 x5 x6 (ix2 p j) := funext fun j => (v32_at x0 x1 x2 x3 x4 x5 x6 p j).symm
  rw [hy]
  unfold Cert.Gnn.norm
  rw [val_main_v57_apply, val_main_v56_apply, val_main_v53_apply, val_main_v50_apply, v45_at, val_main_v49_apply, val_main_v48_apply,
    val_main_v47_apply, val_main_v52_apply, val_main_v51_apply, val_main_v55_apply, val_main_v54_apply, val_main_v46_apply,
    val_main_cst_8_apply, val_main_call1_v0_apply, val_main_call1_cst_apply]
  have e49 : idx_main_v49 (ix2 p q) = ix2 p (0 : Fin 1) := funext fun a => Fin.ext (by match a with | ⟨0, _⟩ => rfl | ⟨1, _⟩ => rfl)
  have eg : idx_main_v51 (idx_main_v52 (ix2 p q)) = ix1 q := funext fun a => Fin.ext (by match a with | ⟨0, _⟩ => rfl)
  have eb : idx_main_v54 (idx_main_v55 (ix2 p q)) = ix1 q := funext fun a => Fin.ext (by match a with | ⟨0, _⟩ => rfl)
  rw [e49, v43_at, eg, eb]
  simp only [Ideal.maximumf_def, Ideal.addf_def, Ideal.mulf_def, Ideal.hostUnary_rsqrt_def, Ideal.ofBits_def, Ideal.ofBits_zero_f32]

/-! ## The second layer -/

/-- The second layer's sum of the two products and the bias, at row p and column j, is the specification's row before
    its normalisation. -/
theorem v81_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (p : Fin 50000) (j : Fin 128) :
    val_main_v81 (F := Ideal) x0 x1 x2 x3 x4 x5 x6 x7 x8 x9 x10 x11 (ix2 p j)
      = Cert.Gnn.pre (val_main_v75 (F := Ideal) x0 x1 x2 x3 x4 x5 x6 x7 x8) (val_main_v57 (F := Ideal) x0 x1 x2 x3 x4 x5 x6 x7 x8) x9 x11
          (fun q => x10 (ix1 q)) p j := by
  unfold Cert.Gnn.pre
  rw [val_main_v81_apply, val_main_v79_apply, val_main_v76_apply, val_main_v78_apply, val_main_v77_apply, val_main_v80_apply]
  generalize val_main_v75 (F := Ideal) x0 x1 x2 x3 x4 x5 x6 x7 x8 = mean
  generalize val_main_v57 (F := Ideal) x0 x1 x2 x3 x4 x5 x6 x7 x8 = h
  have e1 : ∀ k : Fin 64, lidx_main_v76 (ix2 p j) k = ix2 p k := fun k => funext fun a => Fin.ext (by match a with | ⟨0, _⟩ => rfl | ⟨1, _⟩ => rfl)
  have e2 : ∀ k : Fin 64, ridx_main_v76 (ix2 p j) k = ix2 k j := fun k => funext fun a => Fin.ext (by match a with | ⟨0, _⟩ => rfl | ⟨1, _⟩ => rfl)
  have e3 : ∀ k : Fin 64, lidx_main_v80 (ix2 p j) k = ix2 p k := fun k => funext fun a => Fin.ext (by match a with | ⟨0, _⟩ => rfl | ⟨1, _⟩ => rfl)
  have e4 : ∀ k : Fin 64, ridx_main_v80 (ix2 p j) k = ix2 k j := fun k => funext fun a => Fin.ext (by match a with | ⟨0, _⟩ => rfl | ⟨1, _⟩ => rfl)
  have eb : idx_main_v77 (idx_main_v78 (ix2 p j)) = ix1 j := funext fun a => Fin.ext (by match a with | ⟨0, _⟩ => rfl)
  simp only [e1, e2, e3, e4, eb, Ideal.addf_def]

/-- The second layer's mean column, at row p, is the row's sum divided by the width's word. -/
theorem v85_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (p : Fin 50000) (z : Fin 1) :
    val_main_v85 (F := Ideal) x0 x1 x2 x3 x4 x5 x6 x7 x8 x9 x10 x11 (ix2 p z)
      = Ideal.div (∑ j : Fin 128, val_main_v81 (F := Ideal) x0 x1 x2 x3 x4 x5 x6 x7 x8 x9 x10 x11 (ix2 p j))
          (Ideal.ofBits .f32 0x43000000#32) := by
  rw [val_main_v85_apply, val_main_v83_apply, val_main_v82_apply, val_main_cst_15_apply, val_main_v84_apply, val_main_cst_16_apply]
  generalize val_main_v81 (F := Ideal) x0 x1 x2 x3 x4 x5 x6 x7 x8 x9 x10 x11 = y
  have e : ∀ k : Fin 128, idx_main_v82 (idx_main_v83 (ix2 p z)) k = ix2 p k := fun k => funext fun a => Fin.ext (by match a with | ⟨0, _⟩ => rfl | ⟨1, _⟩ => rfl)
  simp only [e, Ideal.hostDivf_def, Ideal.ofBits_def, Ideal.ofBits_zero_f32, zero_add]

/-- The second layer's centred stage, at row p and column j, is the entry less the row's mean. -/
theorem v87_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (p : Fin 50000) (j : Fin 128) :
    val_main_v87 (F := Ideal) x0 x1 x2 x3 x4 x5 x6 x7 x8 x9 x10 x11 (ix2 p j)
      = val_main_v81 (F := Ideal) x0 x1 x2 x3 x4 x5 x6 x7 x8 x9 x10 x11 (ix2 p j)
        - Ideal.div (∑ j' : Fin 128, val_main_v81 (F := Ideal) x0 x1 x2 x3 x4 x5 x6 x7 x8 x9 x10 x11 (ix2 p j'))
            (Ideal.ofBits .f32 0x43000000#32) := by
  rw [val_main_v87_apply, val_main_v86_apply]
  have e : idx_main_v86 (ix2 p j) = ix2 p (0 : Fin 1) := funext fun a => Fin.ext (by match a with | ⟨0, _⟩ => rfl | ⟨1, _⟩ => rfl)
  rw [e, v85_at, Ideal.subf_def]

/-- The second layer's variance column, at row p, is the sum of the squared centred entries divided by the width's
    word. -/
theorem v92_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (p : Fin 50000) (z : Fin 1) :
    val_main_v92 (F := Ideal) x0 x1 x2 x3 x4 x5 x6 x7 x8 x9 x10 x11 (ix2 p z)
      = Ideal.div (∑ j : Fin 128,
          (val_main_v81 (F := Ideal) x0 x1 x2 x3 x4 x5 x6 x7 x8 x9 x10 x11 (ix2 p j)
            - Ideal.div (∑ j' : Fin 128, val_main_v81 (F := Ideal) x0 x1 x2 x3 x4 x5 x6 x7 x8 x9 x10 x11 (ix2 p j'))
                (Ideal.ofBits .f32 0x43000000#32))
          * (val_main_v81 (F := Ideal) x0 x1 x2 x3 x4 x5 x6 x7 x8 x9 x10 x11 (ix2 p j)
            - Ideal.div (∑ j' : Fin 128, val_main_v81 (F := Ideal) x0 x1 x2 x3 x4 x5 x6 x7 x8 x9 x10 x11 (ix2 p j'))
                (Ideal.ofBits .f32 0x43000000#32)))
        (Ideal.ofBits .f32 0x43000000#32) := by
  rw [val_main_v92_apply, val_main_v90_apply, val_main_v89_apply, val_main_cst_17_apply, val_main_v91_apply, val_main_cst_18_apply,
    Ideal.hostDivf_def, Ideal.ofBits_def, Ideal.ofBits_def, Ideal.ofBits_zero_f32, zero_add]
  refine congrArg (fun s => Ideal.div s (Ideal.ofBits .f32 0x43000000#32)) (Finset.sum_congr rfl fun k _ => ?_)
  have e : idx_main_v89 (idx_main_v90 (ix2 p z)) k = ix2 p k := funext fun a => Fin.ext (by match a with | ⟨0, _⟩ => rfl | ⟨1, _⟩ => rfl)
  rw [e, val_main_v88_apply, v87_at, Ideal.mulf_def]

/-- The second layer's second centred stage reads like the first. -/
theorem v94_at (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (p : Fin 50000) (j : Fin 128) :
    val_main_v94 (F := Ideal) x0 x1 x2 x3 x4 x5 x6 x7 x8 x9 x10 x11 (ix2 p j)
      = val_main_v81 (F := Ideal) x0 x1 x2 x3 x4 x5 x6 x7 x8 x9 x10 x11 (ix2 p j)
        - Ideal.div (∑ j' : Fin 128, val_main_v81 (F := Ideal) x0 x1 x2 x3 x4 x5 x6 x7 x8 x9 x10 x11 (ix2 p j'))
            (Ideal.ofBits .f32 0x43000000#32) := by
  rw [val_main_v94_apply, val_main_v93_apply]
  have e : idx_main_v93 (ix2 p j) = ix2 p (0 : Fin 1) := funext fun a => Fin.ext (by match a with | ⟨0, _⟩ => rfl | ⟨1, _⟩ => rfl)
  rw [e, v85_at, Ideal.subf_def]

theorem ref_h2 (x0 : (⟨S50000x6, .f32⟩ : BufTy).Contents (Elt Ideal)) (x1 : (⟨S2x800000, .i32⟩ : BufTy).Contents (Elt Ideal)) (x2 : (⟨S6x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 x8 : (⟨S64, .f32⟩ : BufTy).Contents (Elt Ideal))
    (x9 : (⟨S64x128, .f32⟩ : BufTy).Contents (Elt Ideal)) (x10 : (⟨S128, .f32⟩ : BufTy).Contents (Elt Ideal)) (x11 : (⟨S64x128, .f32⟩ : BufTy).Contents (Elt Ideal)) (x12 x13 : (⟨S128, .f32⟩ : BufTy).Contents (Elt Ideal)) :
    val_main_v106 (F := Ideal) x0 x1 x2 x3 x4 x5 x6 x7 x8 x9 x10 x11 x12 x13
      = Cert.Gnn.layer (N := 50000) (K := 64) (H := 128) (Ideal.ofBits .f32 0x43000000#32)
          (val_main_v75 (F := Ideal) x0 x1 x2 x3 x4 x5 x6 x7 x8) (val_main_v57 (F := Ideal) x0 x1 x2 x3 x4 x5 x6 x7 x8) x9 x11
          (fun q => x10 (ix1 q)) (fun q => x12 (ix1 q)) (fun q => x13 (ix1 q)) := by
  funext i
  obtain ⟨p, q, rfl⟩ : ∃ (p : Fin 50000) (q : Fin 128), i = ix2 p q := ⟨i 0, i 1, eq_ix2 i⟩
  rw [Cert.Gnn.layer_apply]
  have hy : Cert.Gnn.pre (val_main_v75 (F := Ideal) x0 x1 x2 x3 x4 x5 x6 x7 x8) (val_main_v57 (F := Ideal) x0 x1 x2 x3 x4 x5 x6 x7 x8) x9 x11
        (fun q => x10 (ix1 q)) p
      = fun j => val_main_v81 (F := Ideal) x0 x1 x2 x3 x4 x5 x6 x7 x8 x9 x10 x11 (ix2 p j) :=
    funext fun j => (v81_at x0 x1 x2 x3 x4 x5 x6 x7 x8 x9 x10 x11 p j).symm
  rw [hy]
  unfold Cert.Gnn.norm
  rw [val_main_v106_apply, val_main_v105_apply, val_main_v102_apply, val_main_v99_apply, v94_at, val_main_v98_apply, val_main_v97_apply,
    val_main_v96_apply, val_main_v101_apply, val_main_v100_apply, val_main_v104_apply, val_main_v103_apply, val_main_v95_apply,
    val_main_cst_19_apply, val_main_call2_v0_apply, val_main_call2_cst_apply]
  have e98 : idx_main_v98 (ix2 p q) = ix2 p (0 : Fin 1) := funext fun a => Fin.ext (by match a with | ⟨0, _⟩ => rfl | ⟨1, _⟩ => rfl)
  have eg : idx_main_v100 (idx_main_v101 (ix2 p q)) = ix1 q := funext fun a => Fin.ext (by match a with | ⟨0, _⟩ => rfl)
  have eb : idx_main_v103 (idx_main_v104 (ix2 p q)) = ix1 q := funext fun a => Fin.ext (by match a with | ⟨0, _⟩ => rfl)
  rw [e98, v92_at, eg, eb]
  simp only [Ideal.maximumf_def, Ideal.addf_def, Ideal.mulf_def, Ideal.hostUnary_rsqrt_def, Ideal.ofBits_def, Ideal.ofBits_zero_f32]

end Cert.ReferenceIdeal.RefValue

end
-- ==== Proof.LibSegCount.lean ====
/-
  A vector scatter-add is a sum per segment.

  A host scatter-add whose updates are the `N` entries of a vector, entry `n` added into entry `idx n` of an
  operand vector of length `G` (the update has no window axis, the operand's one axis is scattered and inserted, the
  index vector lies on axis 1 of the `N × 1` indices), leaves at `g`, at the exact values, the operand's entry plus
  the sum of `upd n` over the entries `n` whose index word, read signed, is `g`. Update entry `n` lands at its index
  word read signed when that lies in `[0, G)` and nowhere otherwise. So the update entries landing at `g` are the
  entries whose index word is `g`, and the filtered sum over the update indices is a conditional sum over `n`.
  With every update equal to one this counts the entries of each segment.
-/
import Idealize.ShloMosaic.PureOps.Ideal
import Idealize.ShloMosaic.Lib.ValueIdx

noncomputable section

namespace Cert.LibSegCount

open Idealize.ShloMosaic Idealize.ShloMosaic.ValueIdx

/-- The dimension numbers of a vector scatter: updates of length `N` into an operand of length `G`, indices `N × 1`;
    the update has no window axis, the operand's axis 0 is scattered and inserted, the index vector lies on axis 1. -/
abbrev vecDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable {G N w : Nat} (wf : ScatterDims.WF ⟨1, ![G]⟩ ⟨2, ![N, 1]⟩ ⟨1, ![N]⟩ [] [0] [0] 1)

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's axis the window starts at the index word of the update's entry, read signed. -/
theorem vecDims_start0 (j : (⟨1, ![N]⟩ : Shape).Idx) (idx : IVec ⟨2, ![N, 1]⟩ w) :
    (vecDims G N wf).start j idx (0 : Fin 1) = (idx (ix2 (j 0) 0)).toInt := by
  unfold ScatterDims.start
  have h : (0 : Fin 1) ∈ (vecDims G N wf).scatterDimsToOperandDims := by
    show (0 : Fin 1) ∈ [(0 : Fin 1)]
    exact List.mem_singleton.2 rfl
  rw [dif_pos h]
  congr 2
  funext b
  match b with
  | ⟨0, _⟩ => rfl
  | ⟨1, _⟩ => rfl

/-- The operand's axis is an inserted one: its window coordinate is zero. -/
theorem vecDims_window0 (j : (⟨1, ![N]⟩ : Shape).Idx) :
    (vecDims G N wf).window j (0 : Fin 1) = 0 := by
  unfold ScatterDims.window
  have h : ¬ (0 : Fin 1) ∈ (vecDims G N wf).sKept := by
    show ¬ (0 : Fin 1) ∈ ([] : List (Fin 1))
    exact List.not_mem_nil
  rw [dif_neg h]

/-- WHERE AN UPDATE LANDS. Update entry `n` lands at `g` exactly when its index word, read signed, is `g`: the landing
    place is the signed word itself (the start plus a zero window coordinate), kept only when it lies in `[0, G)`. -/
theorem vecDims_resultIdx (n : Fin N) (idx : IVec ⟨2, ![N, 1]⟩ w) (g : Fin G) :
    (vecDims G N wf).resultIdx? (ix1 n) idx = some (ix1 g) ↔ (idx (ix2 n 0)).toInt = (g.val : Int) := by
  have hs0 : (vecDims G N wf).start (ix1 n) idx (0 : Fin 1) = (idx (ix2 n 0)).toInt :=
    vecDims_start0 wf (ix1 n) idx
  have hw0 : (vecDims G N wf).window (ix1 n) (0 : Fin 1) = 0 := vecDims_window0 wf (ix1 n)
  have hg : g.val < G := g.isLt
  generalize (idx (ix2 n 0)).toInt = t at hs0 ⊢
  unfold ScatterDims.resultIdx?
  split
  · rename_i h
    have h0 : 0 ≤ (vecDims G N wf).start (ix1 n) idx (0 : Fin 1) + (vecDims G N wf).window (ix1 n) (0 : Fin 1)
        ∧ (vecDims G N wf).start (ix1 n) idx (0 : Fin 1) + (vecDims G N wf).window (ix1 n) (0 : Fin 1)
            < ((G : ℕ) : Int) := h 0
    rw [hs0, hw0] at h0
    rw [Option.some.injEq]
    constructor
    · intro hf
      have e0 := congrArg Fin.val (congrFun hf (0 : Fin 1))
      change ((vecDims G N wf).start (ix1 n) idx (0 : Fin 1)
        + (vecDims G N wf).window (ix1 n) (0 : Fin 1)).toNat = g.val at e0
      rw [hs0, hw0] at e0
      omega
    · intro ht
      funext a
      match a with
      | ⟨0, _⟩ =>
        apply Fin.ext
        show ((vecDims G N wf).start (ix1 n) idx (0 : Fin 1)
          + (vecDims G N wf).window (ix1 n) (0 : Fin 1)).toNat = g.val
        rw [hs0, hw0]; omega
  · rename_i h
    constructor
    · intro hf; cases hf
    · intro ht
      exfalso
      apply h
      intro a
      match a with
      | ⟨0, _⟩ =>
        show 0 ≤ (vecDims G N wf).start (ix1 n) idx (0 : Fin 1) + (vecDims G N wf).window (ix1 n) (0 : Fin 1)
          ∧ (vecDims G N wf).start (ix1 n) idx (0 : Fin 1) + (vecDims G N wf).window (ix1 n) (0 : Fin 1)
              < ((G : ℕ) : Int)
        rw [hs0, hw0]; omega

/-- A VECTOR SCATTER-ADD IS A SUM PER SEGMENT. At `g` the result is the operand's entry plus the sum of `upd n` over
    the entries `n` whose index word, read signed, is `g`: the sum over the update entries landing at `g`. -/
theorem hostScatterAdd_vecDims_apply (x : (⟨1, ![G]⟩ : Shape).Idx → EReal) (idx : IVec ⟨2, ![N, 1]⟩ w)
    (upd : (⟨1, ![N]⟩ : Shape).Idx → EReal) (g : Fin G) :
    Ideal.hostScatterAdd (vecDims G N wf) x idx upd (ix1 g)
      = x (ix1 g) + ∑ n : Fin N, if (idx (ix2 n 0)).toInt = (g.val : Int) then upd (ix1 n) else 0 := by
  unfold Ideal.hostScatterAdd
  congr 1
  rw [Finset.sum_filter, sum_idx1]
  refine Finset.sum_congr rfl fun n _ => ?_
  simp only [vecDims_resultIdx wf]

end Cert.LibSegCount

end
-- ==== Proof.LibPoolScatter.lean ====
/-
  A row scatter-add is a sum per segment.

  A host scatter-add whose updates are the `N` rows of an `N × C` array, row `n` added into row `idx n` of a `G × C`
  operand (update axis 1 a window axis, operand axis 0 scattered and inserted, the index vector on axis 1 of the
  `N × 1` indices), leaves at `(g, j)`, at the exact values, the operand's entry plus the sum of `upd n j` over the rows
  `n` whose index word, read signed, is `g`. Update entry `(n, j')` lands at `(idx n read signed, j')` when that row lies
  in `[0, G)` and nowhere otherwise; the column is never moved. So the update entries landing at `(g, j)` are the entries
  `(n, j)` of the rows with index word `g`, and the filtered sum over the `N × C` update indices is a sum over rows.
-/
import Idealize.ShloMosaic.PureOps.Ideal
import Idealize.ShloMosaic.Lib.ValueIdx

noncomputable section

namespace Cert.LibPoolScatter

open Idealize.ShloMosaic Idealize.ShloMosaic.ValueIdx

/-- The dimension numbers of a row scatter: updates `N × C` into an operand `G × C`, indices `N × 1`; the update's
    axis 1 is a window axis, the operand's axis 0 is scattered and inserted, the index vector lies on axis 1. -/
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

/-- On the scattered axis the window starts at the index word of the update's row, read signed. -/
theorem rowDims_start0 (j : (⟨2, ![N, C]⟩ : Shape).Idx) (idx : IVec ⟨2, ![N, 1]⟩ w) :
    (rowDims G N C wf).start j idx (0 : Fin 2) = (idx (ix2 (j 0) 0)).toInt := by
  unfold ScatterDims.start
  have h : (0 : Fin 2) ∈ (rowDims G N C wf).scatterDimsToOperandDims := by
    show (0 : Fin 2) ∈ [(0 : Fin 2)]
    exact List.mem_singleton.2 rfl
  rw [dif_pos h]
  congr 2
  funext b
  match b with
  | ⟨0, _⟩ => rfl
  | ⟨1, _⟩ => rfl

/-- On the window axis the start is zero: the index map does not name it. -/
theorem rowDims_start1 (j : (⟨2, ![N, C]⟩ : Shape).Idx) (idx : IVec ⟨2, ![N, 1]⟩ w) :
    (rowDims G N C wf).start j idx (1 : Fin 2) = 0 := by
  unfold ScatterDims.start
  have h : ¬ (1 : Fin 2) ∈ (rowDims G N C wf).scatterDimsToOperandDims := by
    show ¬ (1 : Fin 2) ∈ [(0 : Fin 2)]
    decide
  rw [dif_neg h]

/-- The scattered axis is an inserted one: its window coordinate is zero. -/
theorem rowDims_window0 (j : (⟨2, ![N, C]⟩ : Shape).Idx) :
    (rowDims G N C wf).window j (0 : Fin 2) = 0 := by
  unfold ScatterDims.window
  have h : ¬ (0 : Fin 2) ∈ (rowDims G N C wf).sKept := by
    show ¬ (0 : Fin 2) ∈ [(1 : Fin 2)]
    decide
  rw [dif_neg h]

/-- On the window axis the window coordinate is the update's column. -/
theorem rowDims_window1 (j : (⟨2, ![N, C]⟩ : Shape).Idx) :
    (rowDims G N C wf).window j (1 : Fin 2) = (j 1).val := by
  unfold ScatterDims.window
  have h : (1 : Fin 2) ∈ (rowDims G N C wf).sKept := by
    show (1 : Fin 2) ∈ [(1 : Fin 2)]
    exact List.mem_singleton.2 rfl
  rw [dif_pos h]
  rfl

/-- WHERE AN UPDATE LANDS. Update entry `(n, j')` lands at `(g, j)` exactly when row `n`'s index word, read signed,
    is `g` and the columns agree: the landing row is the signed word itself (the start plus a zero window coordinate),
    kept only when it lies in `[0, G)`, and the landing column is `j'` (a zero start plus the column), always inside. -/
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  have hs0 : (rowDims G N C wf).start (ix2 n j') idx (0 : Fin 2) = (idx (ix2 n 0)).toInt :=
    rowDims_start0 wf (ix2 n j') idx
  have hs1 : (rowDims G N C wf).start (ix2 n j') idx (1 : Fin 2) = 0 := rowDims_start1 wf (ix2 n j') idx
  have hw0 : (rowDims G N C wf).window (ix2 n j') (0 : Fin 2) = 0 := rowDims_window0 wf (ix2 n j')
  have hw1 : (rowDims G N C wf).window (ix2 n j') (1 : Fin 2) = j'.val := rowDims_window1 wf (ix2 n j')
  have hg : g.val < G := g.isLt
  have hj' : j'.val < C := j'.isLt
  generalize (idx (ix2 n 0)).toInt = t at hs0 ⊢
  unfold ScatterDims.resultIdx?
  split
  · rename_i h
    have h0 : 0 ≤ (rowDims G N C wf).start (ix2 n j') idx (0 : Fin 2) + (rowDims G N C wf).window (ix2 n j') (0 : Fin 2)
        ∧ (rowDims G N C wf).start (ix2 n j') idx (0 : Fin 2) + (rowDims G N C wf).window (ix2 n j') (0 : Fin 2)
            < ((G : ℕ) : Int) := h 0
    rw [hs0, hw0] at h0
    rw [Option.some.injEq]
    constructor
    · intro hf
      have e0 := congrArg Fin.val (congrFun hf (0 : Fin 2))
      have e1 := congrArg Fin.val (congrFun hf (1 : Fin 2))
      change ((rowDims G N C wf).start (ix2 n j') idx (0 : Fin 2)
        + (rowDims G N C wf).window (ix2 n j') (0 : Fin 2)).toNat = g.val at e0
      change ((rowDims G N C wf).start (ix2 n j') idx (1 : Fin 2)
        + (rowDims G N C wf).window (ix2 n j') (1 : Fin 2)).toNat = j.val at e1
      rw [hs0, hw0] at e0
      rw [hs1, hw1] at e1
      refine ⟨by omega, Fin.ext (by omega)⟩
    · rintro ⟨ht, rfl⟩
      funext a
      match a with
      | ⟨0, _⟩ =>
        apply Fin.ext
        show ((rowDims G N C wf).start (ix2 n j') idx (0 : Fin 2)
          + (rowDims G N C wf).window (ix2 n j') (0 : Fin 2)).toNat = g.val
        rw [hs0, hw0]; omega
      | ⟨1, _⟩ =>
        apply Fin.ext
        show ((rowDims G N C wf).start (ix2 n j') idx (1 : Fin 2)
          + (rowDims G N C wf).window (ix2 n j') (1 : Fin 2)).toNat = j'.val
        rw [hs1, hw1]; omega
  · rename_i h
    constructor
    · intro hf; cases hf
    · rintro ⟨ht, rfl⟩
      exfalso
      apply h
      intro a
      match a with
      | ⟨0, _⟩ =>
        show 0 ≤ (rowDims G N C wf).start (ix2 n j') idx (0 : Fin 2) + (rowDims G N C wf).window (ix2 n j') (0 : Fin 2)
          ∧ (rowDims G N C wf).start (ix2 n j') idx (0 : Fin 2) + (rowDims G N C wf).window (ix2 n j') (0 : Fin 2)
              < ((G : ℕ) : Int)
        rw [hs0, hw0]; omega
      | ⟨1, _⟩ =>
        show 0 ≤ (rowDims G N C wf).start (ix2 n j') idx (1 : Fin 2) + (rowDims G N C wf).window (ix2 n j') (1 : Fin 2)
          ∧ (rowDims G N C wf).start (ix2 n j') idx (1 : Fin 2) + (rowDims G N C wf).window (ix2 n j') (1 : Fin 2)
              < ((C : ℕ) : Int)
        rw [hs1, hw1]; omega

/-- A ROW SCATTER-ADD IS A SUM PER SEGMENT. At `(g, j)` the result is the operand's entry plus the sum of `upd (n, j)`
    over the rows `n` whose index word, read signed, is `g`: the sum over the update entries landing at `(g, j)`, split
    into rows and columns, keeps in row `n` only column `j`, and only when the row's word is `g`. -/
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int)
  · simp only [ht, true_and, if_true]
    rw [Finset.sum_ite_eq' Finset.univ j (fun j' => upd (ix2 n j'))]
    simp only [Finset.mem_univ, if_true]
  · simp only [ht, false_and, if_false]
    exact Finset.sum_const_zero

end Cert.LibPoolScatter

end
-- ==== Proof.LibDegreeCount.lean ====
/-
  Counting the edges into a node two ways.

  A scatter-add of a length-E vector of updates into a length-N vector, and a scatter-add of the E rows of an E×1
  column of updates into an N×1 column, driven by the same E index words, leave the same number at node n whenever the
  two operands agree at n and the two updates agree at every edge: each is the operand's entry plus the sum of the
  updates over the edges whose index word, read signed, is n. With zero operands and updates all one both count the
  edges into n.

  The neighbour mean then reads the same either way: the per-node count clamped below at one is never zero, so a sum
  times its reciprocal is the sum divided by it (`mul_recip_clamped`, `recip_col_apply`, `rowScale_recip_eq_div`).
  It builds on the two scatter-add readings, the layer module and the layout readings (the modules it imports beside
  the library).
-/
import Idealize.ShloMosaic.PureOps.Ideal
import Idealize.ShloMosaic.Lib.ValueIdx
import proofs.«180277_j29008209117550_1_alg».proof.Proof.LibSegCount
import proofs.«180277_j29008209117550_1_alg».proof.Proof.LibPoolScatter
import proofs.«180277_j29008209117550_1_alg».proof.Proof.LibGraphConv
import proofs.«180277_j29008209117550_1_alg».proof.Proof.LibColumn
import proofs.«180277_j29008209117550_1_alg».proof.Proof.LibSageLayer

noncomputable section

namespace Cert.Sage

open Idealize.ShloMosaic Idealize.ShloMosaic.ValueIdx

/-- The vector scatter-add and the one-column row scatter-add agree at node n. -/
theorem count_vec_eq_col {N E w : ℕ}
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (idx : IVec ⟨2, ![E, 1]⟩ w)
    (x1 : (⟨1, ![N]⟩ : Shape).Idx → EReal) (u1 : (⟨1, ![E]⟩ : Shape).Idx → EReal)
    (x2 : (⟨2, ![N, 1]⟩ : Shape).Idx → EReal) (u2 : (⟨2, ![E, 1]⟩ : Shape).Idx → EReal)
    (n : Fin N) (hx : x1 (ix1 n) = x2 (ix2 n (0 : Fin 1))) (hu : ∀ e : Fin E, u1 (ix1 e) = u2 (ix2 e (0 : Fin 1))) :
    Ideal.hostScatterAdd (Cert.LibSegCount.vecDims N E wf1) x1 idx u1 (ix1 n)
      = Ideal.hostScatterAdd (Cert.LibPoolScatter.rowDims N E 1 wf2) x2 idx u2 (ix2 n (0 : Fin 1)) := by
  rw [Cert.LibSegCount.hostScatterAdd_vecDims_apply, Cert.LibPoolScatter.hostScatterAdd_rowDims_apply, hx]
  refine congrArg _ (Finset.sum_congr rfl fun e _ => ?_)
  rw [hu e]

/-- The same fact over the host's scatter-add, which on the extended reals is that exact sum. -/
theorem host_count_vec_eq_col {N E w : ℕ}
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (idx : IVec ⟨2, ![E, 1]⟩ w)
    (x1 : FVec Ideal ⟨1, ![N]⟩ .f32) (u1 : FVec Ideal ⟨1, ![E]⟩ .f32)
    (x2 : FVec Ideal ⟨2, ![N, 1]⟩ .f32) (u2 : FVec Ideal ⟨2, ![E, 1]⟩ .f32)
    (n : Fin N) (hx : x1 (ix1 n) = x2 (ix2 n (0 : Fin 1))) (hu : ∀ e : Fin E, u1 (ix1 e) = u2 (ix2 e (0 : Fin 1))) :
    Host.scatterAdd (Cert.LibSegCount.vecDims N E wf1) x1 idx u1 (ix1 n)
      = Host.scatterAdd (Cert.LibPoolScatter.rowDims N E 1 wf2) x2 idx u2 (ix2 n (0 : Fin 1)) :=
  count_vec_eq_col wf1 wf2 idx x1 u1 x2 u2 n hx hu

/-- A scalar constant copied to every entry of an array reads, at any entry, the constant. -/
theorem bcast_const_apply {S : Shape} (h : (⟨0, ![]⟩ : Shape).BroadcastsInDim S ![]) (b : BitVec FTy.f32.bits) (i : S.Idx) :
    broadcastInDim S ![] h (constant (F := Ideal) (⟨0, ![]⟩ : Shape) .f32 b) i = Ideal.ofBits .f32 b := by
  rw [broadcastInDim_apply ![] h _ i ix0 (fun ax => ax.elim0)]
  rfl

/-- A sum times the reciprocal of a count clamped below at one is the sum divided by that clamped count. -/
theorem mul_recip_clamped (s d : EReal) : s * Ideal.div 1 (max d 1) = Ideal.div s (max d 1) :=
  LibGraphConv.mul_recip_eq_div s (max d 1) (lt_of_lt_of_le zero_lt_one (le_max_right _ _)).ne'

/-- The column 1 / max(d, 1) made from a vector d, read at node n. -/
theorem recip_col_apply {N : ℕ} (d : FVec Ideal ⟨1, ![N]⟩ .f32) (h0 : (⟨0, ![]⟩ : Shape).BroadcastsInDim ⟨1, ![N]⟩ ![])
    (hc : (⟨1, ![N]⟩ : Shape).ShapeCasts ⟨2, ![N, 1]⟩) (n : Fin N) :
    shapeCast ⟨2, ![N, 1]⟩
        (Host.divf (broadcastInDim ⟨1, ![N]⟩ ![] h0 (constant (F := Ideal) (⟨0, ![]⟩ : Shape) .f32 0x3F800000#32))
          (maximumf d (broadcastInDim ⟨1, ![N]⟩ ![] h0 (constant (F := Ideal) (⟨0, ![]⟩ : Shape) .f32 0x3F800000#32))))
        hc (ix2 n (0 : Fin 1))
      = Ideal.div 1 (max (d (ix1 n)) 1) := by
  rw [Cert.LibColumn.shapeCast_a_a1_apply]
  show Ideal.div (broadcastInDim ⟨1, ![N]⟩ ![] h0 (constant (F := Ideal) (⟨0, ![]⟩ : Shape) .f32 0x3F800000#32) (ix1 n))
      (max (d (ix1 n)) (broadcastInDim ⟨1, ![N]⟩ ![] h0 (constant (F := Ideal) (⟨0, ![]⟩ : Shape) .f32 0x3F800000#32) (ix1 n))) = _
  rw [bcast_const_apply, Ideal.ofBits_one_f32]

/-- THE NEIGHBOUR MEAN, EITHER WAY: sums whose rows are scaled by a column reading 1 / max(d n, 1) at node n are the
    sums divided entrywise by an array reading max(d n, 1) all along row n. -/
theorem rowScale_recip_eq_div {N K : ℕ} (S D : FVec Ideal ⟨2, ![N, K]⟩ .f32) (s : FVec Ideal ⟨2, ![N, 1]⟩ .f32)
    (d : Fin N → EReal) (hs : ∀ n : Fin N, s (ix2 n (0 : Fin 1)) = Ideal.div 1 (max (d n) 1))
    (hD : ∀ (n : Fin N) (k : Fin K), D (ix2 n k) = max (d n) 1) :
    rowScale S s = Host.divf S D := by
  funext i
  obtain ⟨n, k, rfl⟩ : ∃ (n : Fin N) (k : Fin K), i = ix2 n k := ⟨i 0, i 1, eq_ix2 i⟩
  rw [rowScale_apply, hs]
  show _ = Ideal.div (S (ix2 n k)) (D (ix2 n k))
  rw [hD]
  exact mul_recip_clamped _ _

end Cert.Sage

end
-- ==== Proof.Bridge.lean ====
/-
  The reference's result is the kernel program's network of the same fourteen arguments.

  Both programs fetch the rows of the current features at the edges' sources (a negative index word wrapped once) and
  add them up at the edges' destinations, by the same host operations on the same index columns: the two neighbour-sum
  arrays are one function (`agg1`, `agg2`). They differ in how the sums become means. The reference divides each row
  by max(d, 1), d the number of edges into the node counted by adding a column of ones; the kernel's program multiplies
  each row by 1 / max(d, 1), d counted by adding a vector of ones. The two counts agree node by node (`count_eq`), the
  clamped count is at least one and so never zero, and a sum times the reciprocal of a nonzero number is the sum divided
  by it on the extended reals (`mean1`, `mean2`). With the reference's three dense stages read as the specification's
  projection and layers, the two results are the same composition (`ref_eq_net`).
-/
import proofs.«180277_j29008209117550_1_alg».proof.Proof.RefValue
import proofs.«180277_j29008209117550_1_alg».proof.Proof.KDefs
import proofs.«180277_j29008209117550_1_alg».proof.Proof.LibDegreeCount

noncomputable section

namespace Cert.Bridge

open Idealize.ShloMosaic Idealize.ShloMosaic.ValueIdx
open Cert.ReferenceIdeal.Read Cert.KernelIdeal

/-- The neighbour sums of the first layer: the same host operations on the same columns. -/
theorem agg1 (x0 : (⟨Cert.ReferenceIdeal.S50000x6, .f32⟩ : BufTy).Contents (Elt Ideal)) (x1 : (⟨Cert.ReferenceIdeal.S2x800000, .i32⟩ : BufTy).Contents (Elt Ideal)) (x2 : (⟨Cert.ReferenceIdeal.S6x64, .f32⟩ : BufTy).Contents (Elt Ideal)) (x3 : (⟨Cert.ReferenceIdeal.S64, .f32⟩ : BufTy).Contents (Elt Ideal)) :
    val_main_v18 (F := Ideal) x0 x1 x2 x3 = HostFn.agg x1 (val_main_v8 (F := Ideal) x0 x2 x3) := rfl

/-- The neighbour sums of the second layer. -/
theorem agg2 (x0 : (⟨Cert.ReferenceIdeal.S50000x6, .f32⟩ : BufTy).Contents (Elt Ideal)) (x1 : (⟨Cert.ReferenceIdeal.S2x800000, .i32⟩ : BufTy).Contents (Elt Ideal)) (x2 : (⟨Cert.ReferenceIdeal.S6x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 : (⟨Cert.ReferenceIdeal.S64, .f32⟩ : BufTy).Contents (Elt Ideal)) :
    val_main_v67 (F := Ideal) x0 x1 x2 x3 x4 x5 x6 x7 x8 = HostFn.agg x1 (val_main_v57 (F := Ideal) x0 x1 x2 x3 x4 x5 x6 x7 x8) := rfl

/-- The number of edges into node n, counted as a column (the reference, first layer) or as a vector (the kernel's program). -/
theorem count_eq (x1 : (⟨Cert.ReferenceIdeal.S2x800000, .i32⟩ : BufTy).Contents (Elt Ideal)) (n : Fin 50000) :
    val_main_v22 (F := Ideal) x1 (ix2 n (0 : Fin 1)) = HostFn.deg x1 (ix1 n) := by
  have wf1 : ScatterDims.WF ⟨1, ![50000]⟩ ⟨2, ![800000, 1]⟩ ⟨1, ![800000]⟩ [] [0] [0] 1 :=
    Cert.KernelIdeal.scatter_S50000_S800000x1_S800000_n_0_0_1.wf
  have wf2 : ScatterDims.WF ⟨2, ![50000, 1]⟩ ⟨2, ![800000, 1]⟩ ⟨2, ![800000, 1]⟩ [1] [0] [0] 1 :=
    Cert.ReferenceIdeal.scatter_S50000x1_S800000x1_S800000x1_1_0_0_1.wf
  refine (Cert.Sage.host_count_vec_eq_col wf1 wf2 (HostFn.dstCol x1) _ _ _ _ n ?_ ?_).symm
  · exact (Cert.Sage.bcast_const_apply _ _ _).trans (Cert.Sage.bcast_const_apply _ _ _).symm
  · intro e
    exact (Cert.Sage.bcast_const_apply _ _ _).trans (Cert.Sage.bcast_const_apply _ _ _).symm

/-- The same count, as the reference's second layer forms it again. -/
theorem count_eq2 (x1 : (⟨Cert.ReferenceIdeal.S2x800000, .i32⟩ : BufTy).Contents (Elt Ideal)) (n : Fin 50000) :
    val_main_v71 (F := Ideal) x1 (ix2 n (0 : Fin 1)) = HostFn.deg x1 (ix1 n) := count_eq x1 n

/-- The reference's divisor array reads max(d n, 1) all along row n (first layer). -/
theorem clamp1 (x1 : (⟨Cert.ReferenceIdeal.S2x800000, .i32⟩ : BufTy).Contents (Elt Ideal)) (n : Fin 50000) (k : Fin 64) :
    val_main_v25 (F := Ideal) x1 (ix2 n k) = max (HostFn.deg x1 (ix1 n)) 1 := by
  rw [val_main_v25_apply, show idx_main_v25 (ix2 n k) = ix2 n (0 : Fin 1) from
    funext fun a => Fin.ext (by match a with | ⟨0, _⟩ => rfl | ⟨1, _⟩ => rfl), val_main_v24_apply, count_eq]
  show max _ (val_main_v23 (F := Ideal) (ix2 n (0 : Fin 1))) = _
  rw [show val_main_v23 (F := Ideal) (ix2 n (0 : Fin 1)) = Ideal.ofBits .f32 0x3F800000#32 from
    Cert.Sage.bcast_const_apply _ _ _, Ideal.ofBits_one_f32]

/-- The reference's divisor array reads max(d n, 1) all along row n (second layer). -/
theorem clamp2 (x1 : (⟨Cert.ReferenceIdeal.S2x800000, .i32⟩ : BufTy).Contents (Elt Ideal)) (n : Fin 50000) (k : Fin 64) :
    val_main_v74 (F := Ideal) x1 (ix2 n k) = max (HostFn.deg x1 (ix1 n)) 1 := by
  rw [val_main_v74_apply, show idx_main_v74 (ix2 n k) = ix2 n (0 : Fin 1) from
    funext fun a => Fin.ext (by match a with | ⟨0, _⟩ => rfl | ⟨1, _⟩ => rfl), val_main_v73_apply, count_eq2]
  show max _ (val_main_v72 (F := Ideal) (ix2 n (0 : Fin 1))) = _
  rw [show val_main_v72 (F := Ideal) (ix2 n (0 : Fin 1)) = Ideal.ofBits .f32 0x3F800000#32 from
    Cert.Sage.bcast_const_apply _ _ _, Ideal.ofBits_one_f32]

/-- The column 1 / max(d, 1) of the kernel's program, read at node n. -/
theorem dinv_apply (x1 : (⟨Cert.ReferenceIdeal.S2x800000, .i32⟩ : BufTy).Contents (Elt Ideal)) (n : Fin 50000) :
    HostFn.dinv x1 (ix2 n (0 : Fin 1)) = Ideal.div 1 (max (HostFn.deg x1 (ix1 n)) 1) :=
  Cert.Sage.recip_col_apply (N := 50000) (HostFn.deg x1) _ _ n

/-- THE NEIGHBOUR MEANS of the first layer: the reference's sums divided by the clamped count are the sums scaled row by
    row by its reciprocal. -/
theorem mean1 (x0 : (⟨Cert.ReferenceIdeal.S50000x6, .f32⟩ : BufTy).Contents (Elt Ideal)) (x1 : (⟨Cert.ReferenceIdeal.S2x800000, .i32⟩ : BufTy).Contents (Elt Ideal)) (x2 : (⟨Cert.ReferenceIdeal.S6x64, .f32⟩ : BufTy).Contents (Elt Ideal)) (x3 : (⟨Cert.ReferenceIdeal.S64, .f32⟩ : BufTy).Contents (Elt Ideal)) :
    val_main_v26 (F := Ideal) x0 x1 x2 x3 = HostFn.meanK x1 (val_main_v8 (F := Ideal) x0 x2 x3) := by
  unfold val_main_v26 HostFn.meanK
  rw [agg1]
  exact (Cert.Sage.rowScale_recip_eq_div (N := 50000) (K := 64) _ _ (HostFn.dinv x1) (fun n => HostFn.deg x1 (ix1 n))
    (dinv_apply x1) (clamp1 x1)).symm

/-- The neighbour means of the second layer. -/
theorem mean2 (x0 : (⟨Cert.ReferenceIdeal.S50000x6, .f32⟩ : BufTy).Contents (Elt Ideal)) (x1 : (⟨Cert.ReferenceIdeal.S2x800000, .i32⟩ : BufTy).Contents (Elt Ideal)) (x2 : (⟨Cert.ReferenceIdeal.S6x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 : (⟨Cert.ReferenceIdeal.S64, .f32⟩ : BufTy).Contents (Elt Ideal)) :
    val_main_v75 (F := Ideal) x0 x1 x2 x3 x4 x5 x6 x7 x8
      = HostFn.meanK x1 (val_main_v57 (F := Ideal) x0 x1 x2 x3 x4 x5 x6 x7 x8) := by
  unfold val_main_v75 HostFn.meanK
  rw [agg2]
  exact (Cert.Sage.rowScale_recip_eq_div (N := 50000) (K := 64) _ _ (HostFn.dinv x1) (fun n => HostFn.deg x1 (ix1 n))
    (dinv_apply x1) (clamp2 x1)).symm

/-- THE REFERENCE'S RESULT is the network of its arguments. -/
theorem ref_eq_net (x0 : (⟨Cert.ReferenceIdeal.S50000x6, .f32⟩ : BufTy).Contents (Elt Ideal)) (x1 : (⟨Cert.ReferenceIdeal.S2x800000, .i32⟩ : BufTy).Contents (Elt Ideal)) (x2 : (⟨Cert.ReferenceIdeal.S6x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 x8 : (⟨Cert.ReferenceIdeal.S64, .f32⟩ : BufTy).Contents (Elt Ideal))
    (x9 : (⟨Cert.ReferenceIdeal.S64x128, .f32⟩ : BufTy).Contents (Elt Ideal)) (x10 : (⟨Cert.ReferenceIdeal.S128, .f32⟩ : BufTy).Contents (Elt Ideal)) (x11 : (⟨Cert.ReferenceIdeal.S64x128, .f32⟩ : BufTy).Contents (Elt Ideal)) (x12 x13 : (⟨Cert.ReferenceIdeal.S128, .f32⟩ : BufTy).Contents (Elt Ideal)) :
    val_main_v106 (F := Ideal) x0 x1 x2 x3 x4 x5 x6 x7 x8 x9 x10 x11 x12 x13
      = HostFn.net x0 x1 x2 x3 x4 x5 x6 x7 x8 x9 x10 x11 x12 x13 := by
  rw [Cert.ReferenceIdeal.RefValue.ref_h2, mean2, Cert.ReferenceIdeal.RefValue.ref_h1, mean1, Cert.ReferenceIdeal.RefValue.ref_h0]
  rfl

end Cert.Bridge

end
-- ==== Proof.lean ====
/-
  The certificate of a two-layer mean-aggregating graph network on 50000 nodes and 800000 edges: a Pallas kernel program
  of three row-tiled kernels (the input projection with a rectifier; twice a graph-convolution layer — neighbour sums
  scaled by 1 / max(degree, 1), two matrix products, a bias, a row normalisation by the row's own mean and variance, scale,
  shift, rectifier) with host gathers and scatter-adds between them, against a plain reference that divides the neighbour
  sums by max(degree, 1) and does everything on whole arrays.

  On the extended reals the two compute one function of the fourteen arguments, `HostFn.net`:
  * the kernel program's run ends with its result buffer at the last boundary's contents (`RunValue.run_value`), and those
    contents, read back through the three regions — each a row-local function, its blocks tiling the rows — and the host
    operations between them, are the network (`HostValue.kernel_value`);
  * the reference's run ends at its composed term, whose three dense stages are the specification's projection and layers and
    whose neighbour means are the kernel program's: the degree counted as a column or as a vector is one number, and a
    sum times the reciprocal of a nonzero number is the sum divided by it (`Bridge.ref_eq_net`).
  No rewrite was made when the kernel was idealized (a change of float format is the identity there), so that claim is
  empty; the three frame claims are the generated frames and the reference's generated run.
-/
import proofs.«180277_j29008209117550_1_alg».proof.Defs
import proofs.«180277_j29008209117550_1_alg».proof.Proof.Gen.Kernel
import proofs.«180277_j29008209117550_1_alg».proof.Proof.Gen.Kernel.Skeleton
import proofs.«180277_j29008209117550_1_alg».proof.Proof.Gen.Kernel.Launch
import proofs.«180277_j29008209117550_1_alg».proof.Proof.Gen.Kernel.Points
import proofs.«180277_j29008209117550_1_alg».proof.Proof.Gen.Kernel.Frame
import proofs.«180277_j29008209117550_1_alg».proof.Proof.Gen.KernelIdeal
import proofs.«180277_j29008209117550_1_alg».proof.Proof.Gen.KernelIdeal.Skeleton
import proofs.«180277_j29008209117550_1_alg».proof.Proof.Gen.KernelIdeal.Launch
import proofs.«180277_j29008209117550_1_alg».proof.Proof.Gen.KernelIdeal.Points
import proofs.«180277_j29008209117550_1_alg».proof.Proof.Gen.KernelIdeal.Frame
import proofs.«180277_j29008209117550_1_alg».proof.Proof.Gen.ReferenceIdeal
import proofs.«180277_j29008209117550_1_alg».proof.Proof.Gen.ReferenceIdeal.Run
import proofs.«180277_j29008209117550_1_alg».proof.Proof.Gen.ReferenceIdeal.Read
import proofs.«180277_j29008209117550_1_alg».proof.Proof.Gen.Pre_finite_inputs
import proofs.«180277_j29008209117550_1_alg».proof.Proof.KRun
import proofs.«180277_j29008209117550_1_alg».proof.Proof.KHost
import proofs.«180277_j29008209117550_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of those arguments in their result. -/
theorem algebraic : Cert.algebraic_KernelIdeal_ReferenceIdeal := by
  intro m ρ m' ρ' _ hagree
  refine ⟨fun c => Cert.KernelIdeal.HostFn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.HostValue.kernel_value m ρ c), (h c).2⟩)
      (Cert.KernelIdeal.RunValue.run_value (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13⟩ := hagree c
    rw [(h c).1, Cert.ReferenceIdeal.Read.val_main_v106_eq, Cert.Bridge.ref_eq_net,
      e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
